-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x3 : Shape := ⟨2, ![4096, 3]⟩
abbrev S4096x128 : Shape := ⟨2, ![4096, 128]⟩
abbrev S128x3 : Shape := ⟨2, ![128, 3]⟩
abbrev S128x1024 : Shape := ⟨2, ![128, 1024]⟩
abbrev S3x3 : Shape := ⟨2, ![3, 3]⟩
abbrev S3 : Shape := ⟨1, ![3]⟩
abbrev S4096 : Shape := ⟨1, ![4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x3 : S_.BroadcastsInDim S4096x3 (![] : Fin 0 → Fin S4096x3.rank)
  reducesTo_S4096x3_S_d0_1 : S4096x3.ReducesTo [0, 1] S_
  bcast_S_S4096x128 : S_.BroadcastsInDim S4096x128 (![] : Fin 0 → Fin S4096x128.rank)
  reducesTo_S4096x128_S_d0_1 : S4096x128.ReducesTo [0, 1] S_
  bcast_S_S128x3 : S_.BroadcastsInDim S128x3 (![] : Fin 0 → Fin S128x3.rank)
  reducesTo_S128x3_S_d0_1 : S128x3.ReducesTo [0, 1] S_
  bcast_S_S128x1024 : S_.BroadcastsInDim S128x1024 (![] : Fin 0 → Fin S128x1024.rank)
  reducesTo_S128x1024_S_d0_1 : S128x1024.ReducesTo [0, 1] S_
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_arg19 : FVec F S1024 .f32) (main_v83 : IVec S_ 1) (main_v84 : FVec F S4096 .f32) (main_cst_32 : FVec F S_ .f32) : IVec S_ 1 :=
  let main_v85 : FVec F S4096 .f32 := broadcastInDim S4096 ![] bcast_S_S4096 main_cst_32
  let main_v86 : IVec S4096 1 := cmpf .olt main_v84 main_v85
  let main_c_33 : IVec S_ 1 := constantI S_ 1 1#1
  let main_v87 : IVec S_ 1 := (fun x v => Host.reduce IntOp.andi x v reducesTo_S4096_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024 .f32 := Host.absf main_arg19
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  main_v98

def fn_part4 {F : FTy → Type} [FloatOps F] (main_arg14 : FVec F S4096 .f32) (main_arg15 : FVec F S4096 .f32) (main_arg16 : FVec F S4096 .f32) (main_arg17 : FVec F S4096 .f32) (main_arg18 : FVec F S1024 .f32) (main_arg19 : FVec F S1024 .f32) (main_v63 : IVec S_ 1) (main_v67 : IVec S_ 1) : IVec S_ 1 :=
  let main_v68 : IVec S_ 1 := andi main_v63 main_v67
  let main_v69 : FVec F S4096 .f32 := Host.absf main_arg14
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  let main_v74 : FVec F S4096 .f32 := Host.absf main_arg15
  let main_cst_28 : FVec F S_ .f32 := constant S_ .f32 0x7F800000#32
  let main_v75 : FVec F S4096 .f32 := broadcastInDim S4096 ![] bcast_S_S4096 main_cst_28
  let main_v76 : IVec S4096 1 := cmpf .olt main_v74 main_v75
  let main_c_29 : IVec S_ 1 := constantI S_ 1 1#1
  let main_v77 : IVec S_ 1 := (fun x v => Host.reduce IntOp.andi x v reducesTo_S4096_S_d0 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  let main_v84 : FVec F S4096 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S3 .f32) (main_arg12 : FVec F S3x3 .f32) (main_arg13 : FVec F S3 .f32) (main_arg14 : FVec F S4096 .f32) (main_arg15 : FVec F S4096 .f32) (main_arg16 : FVec F S4096 .f32) (main_arg17 : FVec F S4096 .f32) (main_arg18 : FVec F S1024 .f32) (main_arg19 : FVec F S1024 .f32) (main_v48 : IVec S_ 1) (main_v49 : FVec F S3x3 .f32) (main_v50 : FVec F S3x3 .f32) : IVec S_ 1 :=
  let main_v51 : IVec S3x3 1 := cmpf .olt main_v49 main_v50
  let main_c_19 : IVec S_ 1 := constantI S_ 1 1#1
  let main_v52 : IVec S_ 1 := (fun x v => Host.reduce IntOp.andi x v reducesTo_S3x3_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  let main_v59 : FVec F S3x3 .f32 := Host.absf main_arg12
  let main_cst_22 : FVec F S_ .f32 := constant S_ .f32 0x7F800000#32
  let main_v60 : FVec F S3x3 .f32 := broadcastInDim S3x3 ![] bcast_S_S3x3 main_cst_22
  let main_v61 : IVec S3x3 1 := cmpf .olt main_v59 main_v60
  let main_c_23 : IVec S_ 1 := constantI S_ 1 1#1
  let main_v62 : IVec S_ 1 := (fun x v => Host.reduce IntOp.andi x v reducesTo_S3x3_S_d0_1 h_S_) main_v61 main_c_23
  let main_v63 : IVec S_ 1 := andi main_v58 main_v62
  let main_v64 : FVec F S3 .f32 := Host.absf main_arg13
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_arg14 main_arg15 main_arg16 main_arg17 main_arg18 main_arg19 main_v63 main_v67

def fn_part2 {F : FTy → Type} [FloatOps F] (main_arg7 : FVec F S4096x128 .f32) (main_arg8 : FVec F S128x3 .f32) (main_arg9 : FVec F S128x1024 .f32) (main_arg10 : FVec F S3x3 .f32) (main_arg11 : FVec F S3 .f32) (main_arg12 : FVec F S3x3 .f32) (main_arg13 : FVec F S3 .f32) (main_arg14 : FVec F S4096 .f32) (main_arg15 : FVec F S4096 .f32) (main_arg16 : FVec F S4096 .f32) (main_arg17 : FVec F S4096 .f32) (main_arg18 : FVec F S1024 .f32) (main_arg19 : FVec F S1024 .f32) (main_v33 : IVec S_ 1) : IVec S_ 1 :=
  let main_v34 : FVec F S4096x128 .f32 := Host.absf main_arg7
  let main_cst_12 : FVec F S_ .f32 := constant S_ .f32 0x7F800000#32
  let main_v35 : FVec F S4096x128 .f32 := broadcastInDim S4096x128 ![] bcast_S_S4096x128 main_cst_12
  let main_v36 : IVec S4096x128 1 := cmpf .olt main_v34 main_v35
  let main_c_13 : IVec S_ 1 := constantI S_ 1 1#1
  let main_v37 : IVec S_ 1 := (fun x v => Host.reduce IntOp.andi x v reducesTo_S4096x128_S_d0_1 h_S_) main_v36 main_c_13
  let main_v38 : IVec S_ 1 := andi main_v33 main_v37
  let main_v39 : FVec F S128x3 .f32 := Host.absf main_arg8
  let main_cst_14 : FVec F S_ .f32 := constant S_ .f32 0x7F800000#32
  let main_v40 : FVec F S128x3 .f32 := broadcastInDim S128x3 ![] bcast_S_S128x3 main_cst_14
  let main_v41 : IVec S128x3 1 := cmpf .olt main_v39 main_v40
  let main_c_15 : IVec S_ 1 := constantI S_ 1 1#1
  let main_v42 : IVec S_ 1 := (fun x v => Host.reduce IntOp.andi x v reducesTo_S128x3_S_d0_1 h_S_) main_v41 main_c_15
  let main_v43 : IVec S_ 1 := andi main_v38 main_v42
  let main_v44 : FVec F S128x1024 .f32 := Host.absf main_arg9
  let main_cst_16 : FVec F S_ .f32 := constant S_ .f32 0x7F800000#32
  let main_v45 : FVec F S128x1024 .f32 := broadcastInDim S128x1024 ![] bcast_S_S128x1024 main_cst_16
  let main_v46 : IVec S128x1024 1 := cmpf .olt main_v44 main_v45
  let main_c_17 : IVec S_ 1 := constantI S_ 1 1#1
  let main_v47 : IVec S_ 1 := (fun x v => Host.reduce IntOp.andi x v reducesTo_S128x1024_S_d0_1 h_S_) main_v46 main_c_17
  let main_v48 : IVec S_ 1 := andi main_v43 main_v47
  let main_v49 : FVec F S3x3 .f32 := Host.absf main_arg10
  let main_cst_18 : FVec F S_ .f32 := constant S_ .f32 0x7F800000#32
  let main_v50 : FVec F S3x3 .f32 := broadcastInDim S3x3 ![] bcast_S_S3x3 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S4096x128 .f32) (main_arg5 : FVec F S128x3 .f32) (main_arg6 : FVec F S128x1024 .f32) (main_arg7 : FVec F S4096x128 .f32) (main_arg8 : FVec F S128x3 .f32) (main_arg9 : FVec F S128x1024 .f32) (main_arg10 : FVec F S3x3 .f32) (main_arg11 : FVec F S3 .f32) (main_arg12 : FVec F S3x3 .f32) (main_arg13 : FVec F S3 .f32) (main_arg14 : FVec F S4096 .f32) (main_arg15 : FVec F S4096 .f32) (main_arg16 : FVec F S4096 .f32) (main_arg17 : FVec F S4096 .f32) (main_arg18 : FVec F S1024 .f32) (main_arg19 : FVec F S1024 .f32) (main_v13 : IVec S_ 1) (main_v16 : IVec S4096x3 1) : IVec S_ 1 :=
  let main_c_5 : IVec S_ 1 := constantI S_ 1 1#1
  let main_v17 : IVec S_ 1 := (fun x v => Host.reduce IntOp.andi x v reducesTo_S4096x3_S_d0_1 h_S_) main_v16 main_c_5
  let main_v18 : IVec S_ 1 := andi main_v13 main_v17
  let main_v19 : FVec F S4096x128 .f32 := Host.absf main_arg4
  let main_cst_6 : FVec F S_ .f32 := constant S_ .f32 0x7F800000#32
  let main_v20 : FVec F S4096x128 .f32 := broadcastInDim S4096x128 ![] bcast_S_S4096x128 main_cst_6
  let main_v21 : IVec S4096x128 1 := cmpf .olt main_v19 main_v20
  let main_c_7 : IVec S_ 1 := constantI S_ 1 1#1
  let main_v22 : IVec S_ 1 := (fun x v => Host.reduce IntOp.andi x v reducesTo_S4096x128_S_d0_1 h_S_) main_v21 main_c_7
  let main_v23 : IVec S_ 1 := andi main_v18 main_v22
  let main_v24 : FVec F S128x3 .f32 := Host.absf main_arg5
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v23 main_v27
  let main_v29 : FVec F S128x1024 .f32 := Host.absf main_arg6
  let main_cst_10 : FVec F S_ .f32 := constant S_ .f32 0x7F800000#32
  let main_v30 : FVec F S128x1024 .f32 := broadcastInDim S128x1024 ![] bcast_S_S128x1024 main_cst_10
  let main_v31 : IVec S128x1024 1 := cmpf .olt main_v29 main_v30
  let main_c_11 : IVec S_ 1 := constantI S_ 1 1#1
  let main_v32 : IVec S_ 1 := (fun x v => Host.reduce IntOp.andi x v reducesTo_S128x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S4096x1024 .f32) (main_arg1 : FVec F S4096x1024 .f32) (main_arg2 : FVec F S4096x1024 .f32) (main_arg3 : FVec F S4096x3 .f32) (main_arg4 : FVec F S4096x128 .f32) (main_arg5 : FVec F S128x3 .f32) (main_arg6 : FVec F S128x1024 .f32) (main_arg7 : FVec F S4096x128 .f32) (main_arg8 : FVec F S128x3 .f32) (main_arg9 : FVec F S128x1024 .f32) (main_arg10 : FVec F S3x3 .f32) (main_arg11 : FVec F S3 .f32) (main_arg12 : FVec F S3x3 .f32) (main_arg13 : FVec F S3 .f32) (main_arg14 : FVec F S4096 .f32) (main_arg15 : FVec F S4096 .f32) (main_arg16 : FVec F S4096 .f32) (main_arg17 : FVec F S4096 .f32) (main_arg18 : FVec F S1024 .f32) (main_arg19 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x3 .f32 := Host.absf main_arg3
  let main_cst_4 : FVec F S_ .f32 := constant S_ .f32 0x7F800000#32
  let main_v15 : FVec F S4096x3 .f32 := broadcastInDim S4096x3 ![] bcast_S_S4096x3 main_cst_4
  let main_v16 : IVec S4096x3 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S4096x1024 : Shape := ⟨2, ![4096, 1024]⟩
abbrev S4096x3 : Shape := ⟨2, ![4096, 3]⟩
abbrev S4096x128 : Shape := ⟨2, ![4096, 128]⟩
abbrev S128x3 : Shape := ⟨2, ![128, 3]⟩
abbrev S128x1024 : Shape := ⟨2, ![128, 1024]⟩
abbrev S3x3 : Shape := ⟨2, ![3, 3]⟩
abbrev S3 : Shape := ⟨1, ![3]⟩
abbrev S4096 : Shape := ⟨1, ![4096]⟩
abbrev S1024 : Shape := ⟨1, ![1024]⟩
abbrev S1x3 : Shape := ⟨2, ![1, 3]⟩
abbrev S3x128 : Shape := ⟨2, ![3, 128]⟩
abbrev S1024x128 : Shape := ⟨2, ![1024, 128]⟩
abbrev S128x4096 : Shape := ⟨2, ![128, 4096]⟩
abbrev S128x128 : Shape := ⟨2, ![128, 128]⟩
abbrev S128 : Shape := ⟨1, ![128]⟩
abbrev S128x1 : Shape := ⟨2, ![128, 1]⟩
abbrev S1x4096 : Shape := ⟨2, ![1, 4096]⟩
abbrev S1x1024 : Shape := ⟨2, ![1, 1024]⟩

abbrev nBuf : Space → Nat
  | .hbm => 44
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x3, .f32⟩
  | .hbm, ⟨4, _⟩ => ⟨S4096x128, .f32⟩
  | .hbm, ⟨5, _⟩ => ⟨S128x3, .f32⟩
  | .hbm, ⟨6, _⟩ => ⟨S128x1024, .f32⟩
  | .hbm, ⟨7, _⟩ => ⟨S4096x128, .f32⟩
  | .hbm, ⟨8, _⟩ => ⟨S128x3, .f32⟩
  | .hbm, ⟨9, _⟩ => ⟨S128x1024, .f32⟩
  | .hbm, ⟨10, _⟩ => ⟨S3x3, .f32⟩
  | .hbm, ⟨11, _⟩ => ⟨S3, .f32⟩
  | .hbm, ⟨12, _⟩ => ⟨S3x3, .f32⟩
  | .hbm, ⟨13, _⟩ => ⟨S3, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S1024, .f32⟩
  | .hbm, ⟨19, _⟩ => ⟨S1024, .f32⟩
  | .hbm, ⟨20, _⟩ => ⟨S3x3, .f32⟩
  | .hbm, ⟨21, _⟩ => ⟨S4096x3, .f32⟩
  | .hbm, ⟨22, _⟩ => ⟨S1x3, .f32⟩
  | .hbm, ⟨23, _⟩ => ⟨S4096x3, .f32⟩
  | .hbm, ⟨24, _⟩ => ⟨S4096x3, .f32⟩
  | .hbm, ⟨25, _⟩ => ⟨S3x128, .f32⟩
  | .hbm, ⟨26, _⟩ => ⟨S4096x128, .f32⟩
  | .hbm, ⟨27, _⟩ => ⟨S3x3, .f32⟩
  | .hbm, ⟨28, _⟩ => ⟨S4096x3, .f32⟩
  | .hbm, ⟨29, _⟩ => ⟨S1x3, .f32⟩
  | .hbm, ⟨30, _⟩ => ⟨S4096x3, .f32⟩
  | .hbm, ⟨31, _⟩ => ⟨S4096x3, .f32⟩
  | .hbm, ⟨32, _⟩ => ⟨S3x128, .f32⟩
  | .hbm, ⟨33, _⟩ => ⟨S4096x128, .f32⟩
  | .hbm, ⟨34, _⟩ => ⟨S1024x128, .f32⟩
  | .hbm, ⟨35, _⟩ => ⟨S1024x128, .bf16⟩
  | .hbm, ⟨36, _⟩ => ⟨S128x4096, .f32⟩
  | .hbm, ⟨37, _⟩ => ⟨S128x4096, .bf16⟩
  | .hbm, ⟨38, _⟩ => ⟨S1024x128, .f32⟩
  | .hbm, ⟨39, _⟩ => ⟨S1024x128, .bf16⟩
  | .hbm, ⟨40, _⟩ => ⟨S128x4096, .f32⟩
  | .hbm, ⟨41, _⟩ => ⟨S128x4096, .bf16⟩
  | .hbm, ⟨42, _⟩ => ⟨S4096x1024, .f32⟩
  | .hbm, ⟨43, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1024x128, .bf16⟩
  | .local _ .vmem, ⟨11, _⟩ => ⟨S128x4096, .bf16⟩
  | .local _ .vmem, ⟨12, _⟩ => ⟨S1024x128, .bf16⟩
  | .local _ .vmem, ⟨13, _⟩ => ⟨S128x4096, .bf16⟩
  | .local _ .vmem, ⟨14, _⟩ => ⟨S4096, .f32⟩
  | .local _ .vmem, ⟨15, _⟩ => ⟨S4096, .f32⟩
  | .local _ .vmem, ⟨16, _⟩ => ⟨S4096, .f32⟩
  | .local _ .vmem, ⟨17, _⟩ => ⟨S4096, .f32⟩
  | .local _ .vmem, ⟨18, _⟩ => ⟨S1024, .f32⟩
  | .local _ .vmem, ⟨19, _⟩ => ⟨S1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S3x3_S3x3_1_0 : S3x3.Transposes [1, 0] S3x3
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  transposes_S128x3_S3x128_1_0 : S128x3.Transposes [1, 0] S3x128
  transposes_S128x1024_S1024x128_1_0 : S128x1024.Transposes [1, 0] S1024x128
  bitsLt_bf16_f32 : FTy.bits .bf16 < FTy.bits .f32
  transposes_S4096x128_S128x4096_1_0 : S4096x128.Transposes [1, 0] S128x4096
  inb_S128x1024_S128x1024_0_0 : ∀ a, (![0, 0] : Fin 2 → Nat) a + S128x1024.size a ≤ S128x1024.size a
  h_S128x1024 : 0 < S128x1024.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096_S4096_0 : ∀ a, (![0] : Fin 1 → Nat) a + S4096.size a ≤ S4096.size a
  h_S4096 : 0 < S4096.numel
  reduces_S128x4096_S128 : S128x4096.Reduces [1] S128
  shapeCasts_S128_S128x1 : S128.ShapeCasts S128x1
  broadcasts_S128x1_S128x4096 : S128x1.Broadcasts S128x4096
  shapeCasts_S4096_S1x4096 : S4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1024_S1024_0 : ∀ a, (![0] : Fin 1 → Nat) a + S1024.size a ≤ S1024.size a
  h_S1024 : 0 < S1024.numel
  reduces_S128x1024_S128 : S128x1024.Reduces [1] S128
  broadcasts_S128x1_S128x1024 : S128x1.Broadcasts S128x1024
  shapeCasts_S1024_S1x1024 : S1024.ShapeCasts S1x1024
  broadcasts_S1x1024_S128x1024 : S1x1024.Broadcasts S128x1024
  dot_S4096x3_S3x3_S4096x3_1_0_0_1_n_n_wf : DotDims.WF S4096x3 S3x3 S4096x3 [1] [0] [0] [1] [] []
  dot_S4096x3_S3x128_S4096x128_1_0_0_1_n_n_wf : DotDims.WF S4096x3 S3x128 S4096x128 [1] [0] [0] [1] [] []
  dot_S128x1024_S1024x128_S128x128_1_0_0_1_n_n_wf : DotDims.WF S128x1024 S1024x128 S128x128 [1] [0] [0] [1] [] []
  dot_S128x128_S128x4096_S128x4096_1_0_0_1_n_n_wf : DotDims.WF S128x128 S128x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S4096x128.size a
  hwx0_3 : ∀ i : grid0.Coords, EltTy.bits .f32 = 32 ∨ (Rect.block (s := S4096x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S4096x128.size a
  hwx0_4 : ∀ i : grid0.Coords, EltTy.bits .f32 = 32 ∨ (Rect.block (s := S4096x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .bf16 = 32 ∨ (Rect.block (s := S1024x128) S1024x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S128x4096.size a
  hwx0_6 : ∀ i : grid0.Coords, EltTy.bits .bf16 = 32 ∨ (Rect.block (s := S128x4096) S128x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .bf16 = 32 ∨ (Rect.block (s := S1024x128) S1024x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S128x4096.size a
  hwx0_8 : ∀ i : grid0.Coords, EltTy.bits .bf16 = 32 ∨ (Rect.block (s := S128x4096) S128x4096.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4096.size a ≤ S4096.size a
  hwx0_9 : ∀ i : grid0.Coords, EltTy.bits .f32 = 32 ∨ (Rect.block (s := S4096) S4096.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4096.size a ≤ S4096.size a
  hwx0_10 : ∀ i : grid0.Coords, EltTy.bits .f32 = 32 ∨ (Rect.block (s := S4096) S4096.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4096.size a ≤ S4096.size a
  hwx0_11 : ∀ i : grid0.Coords, EltTy.bits .f32 = 32 ∨ (Rect.block (s := S4096) S4096.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4096.size a ≤ S4096.size a
  hwx0_12 : ∀ i : grid0.Coords, EltTy.bits .f32 = 32 ∨ (Rect.block (s := S4096) S4096.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024.size a ≤ S1024.size a
  hwx0_13 : ∀ i : grid0.Coords, EltTy.bits .f32 = 32 ∨ (Rect.block (s := S1024) S1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024.size a ≤ S1024.size a
  hwx0_14 : ∀ i : grid0.Coords, EltTy.bits .f32 = 32 ∨ (Rect.block (s := S1024) S1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x1024.size a ≤ S4096x1024.size a
  hwx0_15 : ∀ i : grid0.Coords, EltTy.bits .f32 = 32 ∨ (Rect.block (s := S4096x1024) S128x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x1024.size a ≤ S4096x1024.size a
  hwx0_16 : ∀ i : grid0.Coords, EltTy.bits .f32 = 32 ∨ (Rect.block (s := S4096x1024) S128x1024.size (cc0_transform_16 i) (hinb0_16 i)).WholeWords (EltTy.packing .f32)

variable [Facts₀]

def dot_S4096x3_S3x3_S4096x3_1_0_0_1_n_n : DotDims S4096x3 S3x3 S4096x3 where
  lhsContracting := [1]
  rhsContracting := [0]
  lhsNonContracting := [0]
  rhsNonContracting := [1]
  lhsBatch := []
  rhsBatch := []
  wf := dot_S4096x3_S3x3_S4096x3_1_0_0_1_n_n_wf
def dot_S4096x3_S3x128_S4096x128_1_0_0_1_n_n : DotDims S4096x3 S3x128 S4096x128 where
  lhsContracting := [1]
  rhsContracting := [0]
  lhsNonContracting := [0]
  rhsNonContracting := [1]
  lhsBatch := []
  rhsBatch := []
  wf := dot_S4096x3_S3x128_S4096x128_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S128x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1024x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S128x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg15) S4096.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg16) S4096.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg17) S4096.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg18) S1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg19) S1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v22_0) S128x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v22_1) S128x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x3 : Shape := ⟨2, ![4096, 3]⟩
abbrev S4096x128 : Shape := ⟨2, ![4096, 128]⟩
abbrev S128x3 : Shape := ⟨2, ![128, 3]⟩
abbrev S128x1024 : Shape := ⟨2, ![128, 1024]⟩
abbrev S3x3 : Shape := ⟨2, ![3, 3]⟩
abbrev S3 : Shape := ⟨1, ![3]⟩
abbrev S4096 : Shape := ⟨1, ![4096]⟩
abbrev S1024 : Shape := ⟨1, ![1024]⟩
abbrev S1x3 : Shape := ⟨2, ![1, 3]⟩
abbrev S3x128 : Shape := ⟨2, ![3, 128]⟩
abbrev S1024x128 : Shape := ⟨2, ![1024, 128]⟩
abbrev S128x4096 : Shape := ⟨2, ![128, 4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩
abbrev S1x1024 : Shape := ⟨2, ![1, 1024]⟩

abbrev nBuf : Space → Nat
  | .hbm => 166
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x3, .f32⟩
  | 4 => ⟨S4096x128, .f32⟩
  | 5 => ⟨S128x3, .f32⟩
  | 6 => ⟨S128x1024, .f32⟩
  | 7 => ⟨S4096x128, .f32⟩
  | 8 => ⟨S128x3, .f32⟩
  | 9 => ⟨S128x1024, .f32⟩
  | 10 => ⟨S3x3, .f32⟩
  | 11 => ⟨S3, .f32⟩
  | 12 => ⟨S3x3, .f32⟩
  | 13 => ⟨S3, .f32⟩
  | 14 => ⟨S4096, .f32⟩
  | 15 => ⟨S4096, .f32⟩
  | 16 => ⟨S4096, .f32⟩
  | 17 => ⟨S4096, .f32⟩
  | 18 => ⟨S1024, .f32⟩
  | 19 => ⟨S1024, .f32⟩
  | 20 => ⟨S3x3, .f32⟩
  | 21 => ⟨S4096x3, .f32⟩
  | 22 => ⟨S1x3, .f32⟩
  | 23 => ⟨S4096x3, .f32⟩
  | 24 => ⟨S4096x3, .f32⟩
  | 25 => ⟨S3x128, .f32⟩
  | 26 => ⟨S4096x128, .f32⟩
  | 27 => ⟨S1024x128, .f32⟩
  | 28 => ⟨S4096x128, .f32⟩
  | 29 => ⟨S4096x128, .f32⟩
  | 30 => ⟨S128x4096, .f32⟩
  | 31 => ⟨S4096x4096, .f32⟩
  | 32 => ⟨S3x3, .f32⟩
  | 33 => ⟨S4096x3, .f32⟩
  | 34 => ⟨S1x3, .f32⟩
  | 35 => ⟨S4096x3, .f32⟩
  | 36 => ⟨S4096x3, .f32⟩
  | 37 => ⟨S3x128, .f32⟩
  | 38 => ⟨S4096x128, .f32⟩
  | 39 => ⟨S1024x128, .f32⟩
  | 40 => ⟨S4096x128, .f32⟩
  | 41 => ⟨S4096x128, .f32⟩
  | 42 => ⟨S128x4096, .f32⟩
  | 43 => ⟨S4096x4096, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S4096x4096, .f32⟩
  | 51 => ⟨S4096x4096, .f32⟩
  | 52 => ⟨S4096x4096, .f32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S4096x4096, .f32⟩
  | 60 => ⟨S4096x4096, .f32⟩
  | 61 => ⟨S_, .f32⟩
  | 62 => ⟨S4096x1, .f32⟩
  | 63 => ⟨S4096x1, .f32⟩
  | 64 => ⟨S4096x1, .f32⟩
  | 65 => ⟨S4096x4096, .f32⟩
  | 66 => ⟨S4096x4096, .f32⟩
  | 67 => ⟨S1x4096, .f32⟩
  | 68 => ⟨S4096x4096, .f32⟩
  | 69 => ⟨S4096x4096, .f32⟩
  | 70 => ⟨S1x4096, .f32⟩
  | 71 => ⟨S4096x4096, .f32⟩
  | 72 => ⟨S4096x4096, .f32⟩
  | 73 => ⟨S_, .f32⟩
  | 74 => ⟨S4096, .f32⟩
  | 75 => ⟨S4096x1, .f32⟩
  | 76 => ⟨S_, .f32⟩
  | 77 => ⟨S4096x1, .f32⟩
  | 78 => ⟨S4096x1, .f32⟩
  | 79 => ⟨S4096x4096, .f32⟩
  | 80 => ⟨S4096x4096, .f32⟩
  | 81 => ⟨S4096x4096, .f32⟩
  | 82 => ⟨S_, .f32⟩
  | 83 => ⟨S4096, .f32⟩
  | 84 => ⟨S4096x1, .f32⟩
  | 85 => ⟨S_, .f32⟩
  | 86 => ⟨S4096x1, .f32⟩
  | 87 => ⟨S4096x1, .f32⟩
  | 88 => ⟨S4096x4096, .f32⟩
  | 89 => ⟨S4096x4096, .f32⟩
  | 90 => ⟨S_, .f32⟩
  | 91 => ⟨S4096x1, .f32⟩
  | 92 => ⟨S4096x1, .f32⟩
  | 93 => ⟨S4096x1, .f32⟩
  | 94 => ⟨S4096x4096, .f32⟩
  | 95 => ⟨S4096x4096, .f32⟩
  | 96 => ⟨S1x4096, .f32⟩
  | 97 => ⟨S4096x4096, .f32⟩
  | 98 => ⟨S4096x4096, .f32⟩
  | 99 => ⟨S1x4096, .f32⟩
  | 100 => ⟨S4096x4096, .f32⟩
  | 101 => ⟨S4096x4096, .f32⟩
  | 102 => ⟨S4096x4096, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S_, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S4096x1024, .f32⟩
  | 116 => ⟨S4096x1024, .f32⟩
  | 117 => ⟨S_, .f32⟩
  | 118 => ⟨S4096x1024, .f32⟩
  | 119 => ⟨S4096x1024, .f32⟩
  | 120 => ⟨S_, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S_, .f32⟩
  | 127 => ⟨S4096x1024, .f32⟩
  | _ => ⟨S4096x1024, .f32⟩

abbrev hbmTy0_1 (i : Nat) : BufTy := match i % 128 with
  | 0 => ⟨S4096x1024, .f32⟩
  | 1 => ⟨S_, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S4096x1024, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S_, .f32⟩
  | 25 => ⟨S4096x1, .f32⟩
  | 26 => ⟨S4096x1, .f32⟩
  | 27 => ⟨S4096x1, .f32⟩
  | 28 => ⟨S4096x1024, .f32⟩
  | 29 => ⟨S4096x1024, .f32⟩
  | 30 => ⟨S1x1024, .f32⟩
  | 31 => ⟨S4096x1024, .f32⟩
  | 32 => ⟨S4096x1024, .f32⟩
  | 33 => ⟨S1x1024, .f32⟩
  | 34 => ⟨S4096x1024, .f32⟩
  | 35 => ⟨S4096x1024, .f32⟩
  | 36 => ⟨S4096x1024, .f32⟩
  | 37 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst : Ref sig .tc := ⟨.hbm, 44, rfl⟩
abbrev main_v24 : Ref sig .tc := ⟨.hbm, 45, rfl⟩
abbrev main_v25 : Ref sig .tc := ⟨.hbm, 46, rfl⟩
abbrev main_cst_0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_1 : Ref sig .tc := ⟨.hbm, 53, rfl⟩
abbrev main_v31 : Ref sig .tc := ⟨.hbm, 54, rfl⟩
abbrev main_v32 : Ref sig .tc := ⟨.hbm, 55, rfl⟩
abbrev main_cst_2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_4 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_v56 : Ref sig .tc := ⟨.hbm, 84, rfl⟩
abbrev main_cst_7 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_8 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_9 : Ref sig .tc := ⟨.hbm, 109, rfl⟩
abbrev main_v79 : Ref sig .tc := ⟨.hbm, 110, rfl⟩
abbrev main_v80 : Ref sig .tc := ⟨.hbm, 111, rfl⟩
abbrev main_cst_10 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_11 : Ref sig .tc := ⟨.hbm, 117, rfl⟩
abbrev main_v85 : Ref sig .tc := ⟨.hbm, 118, rfl⟩
abbrev main_v86 : Ref sig .tc := ⟨.hbm, 119, rfl⟩
abbrev main_cst_12 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_13 : Ref sig .tc := ⟨.hbm, 126, rfl⟩
abbrev main_v92 : Ref sig .tc := ⟨.hbm, 127, rfl⟩
abbrev main_v93 : Ref sig .tc := ⟨.hbm, 128, rfl⟩
abbrev main_cst_14 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_15 : Ref sig .tc := ⟨.hbm, 135, rfl⟩
abbrev main_v99 : Ref sig .tc := ⟨.hbm, 136, rfl⟩
abbrev main_v100 : Ref sig .tc := ⟨.hbm, 137, rfl⟩
abbrev main_cst_16 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_17 : Ref sig .tc := ⟨.hbm, 144, rfl⟩
abbrev main_v106 : Ref sig .tc := ⟨.hbm, 145, rfl⟩
abbrev main_v107 : Ref sig .tc := ⟨.hbm, 146, rfl⟩
abbrev main_cst_18 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_19 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩

abbrev nD : Nat := 1
abbrev τ : Topo := Topo.v7x

variable {F : FTy → Type} [FloatOps F]

class Facts₀ : Prop where
  transposes_S3x3_S3x3_1_0 : S3x3.Transposes [1, 0] S3x3
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  transposes_S128x3_S3x128_1_0 : S128x3.Transposes [1, 0] S3x128
  transposes_S128x1024_S1024x128_1_0 : S128x1024.Transposes [1, 0] S1024x128
  transposes_S4096x128_S128x4096_1_0 : S4096x128.Transposes [1, 0] S128x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  reducesTo_S4096x1024_S4096_d1 : S4096x1024.ReducesTo [1] S4096
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x3_S3x3_S4096x3_1_0_0_1_n_n_wf : DotDims.WF S4096x3 S3x3 S4096x3 [1] [0] [0] [1] [] []
  dot_S4096x3_S3x128_S4096x128_1_0_0_1_n_n_wf : DotDims.WF S4096x3 S3x128 S4096x128 [1] [0] [0] [1] [] []
  dot_S4096x1024_S1024x128_S4096x128_1_0_0_1_n_n_wf : DotDims.WF S4096x1024 S1024x128 S4096x128 [1] [0] [0] [1] [] []
  dot_S4096x128_S128x4096_S4096x4096_1_0_0_1_n_n_wf : DotDims.WF S4096x128 S128x4096 S4096x4096 [1] [0] [0] [1] [] []

variable [Facts₀]

def dot_S4096x3_S3x3_S4096x3_1_0_0_1_n_n : DotDims S4096x3 S3x3 S4096x3 where
  lhsContracting := [1]
  rhsContracting := [0]
  lhsNonContracting := [0]
  rhsNonContracting := [1]
  lhsBatch := []
  rhsBatch := []
  wf := dot_S4096x3_S3x3_S4096x3_1_0_0_1_n_n_wf
def dot_S4096x3_S3x128_S4096x128_1_0_0_1_n_n : DotDims S4096x3 S3x128 S4096x128 where
  lhsContracting := [1]
  rhsContracting := [0]
  lhsNonContracting := [0]
  rhsNonContracting := [1]
  lhsBatch := []
  rhsBatch := []
  wf := dot_S4096x3_S3x128_S4096x128_1_0_0_1_n_n_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.CellSpec.lean ====
/-
  The cell's mathematics, one batch row at a time.  Every operation of the cell acts on a batch row by itself
  (the weights and the normalisation parameters are shared by all rows), so the whole computation is a function
  of one row of the inputs:

    s      = (topic · Θᵀ + θ) · Bᵀ                         the topic-conditioned scale, 128 entries
    pre    = ((x · C) ∘ s) · A                              a factorised gate pre-activation, 4096 entries
    gates  = LN(pre_i) + LN(pre_h)
    c'     = σ(gates[1024..2047]) ∘ c + σ(gates[0..1023]) ∘ tanh(gates[2048..3071])
    cy     = LN(c')
    hy     = σ(gates[3072..4095]) ∘ tanh(cy)

  LN(v)_j = (v_j - mean v) · rsqrt(mean((v - mean v)²) + ε) · w_j + b_j, the mean being the sum divided by the
  row length as a float.  All values are extended reals and all operations the exact ones.
-/
import Idealize.ShloMosaic.PureOps.Ideal
import Idealize.ShloMosaic.Lib.ValueIdx

noncomputable section

namespace Cert.Cell

open Idealize.ShloMosaic Idealize.ShloMosaic.ValueIdx

/-- A two-axis array of extended reals. -/
abbrev Arr2 (a b : ℕ) : Type := (⟨2, ![a, b]⟩ : Shape).Idx → EReal
/-- A one-axis array of extended reals. -/
abbrev Arr1 (a : ℕ) : Type := (⟨1, ![a]⟩ : Shape).Idx → EReal

/-- Row `r` of a two-axis array. -/
def rowOf {a b : ℕ} (X : Arr2 a b) (r : Fin a) : Fin b → EReal := fun k => X (ix2 r k)

/-- The transposed array. -/
def tr {a b : ℕ} (W : Arr2 a b) : Arr2 b a := fun i => W (ix2 ⟨(i 1).val, (i 1).isLt⟩ ⟨(i 0).val, (i 0).isLt⟩)

theorem tr_apply {a b : ℕ} (W : Arr2 a b) (j : Fin b) (i : Fin a) : tr W (ix2 j i) = W (ix2 i j) := rfl

/-- A row vector times a matrix: entry `j` of `row · W`. -/
def rowDot {K N : ℕ} (row : Fin K → EReal) (W : Arr2 K N) (j : Fin N) : EReal := ∑ k : Fin K, row k * W (ix2 k j)

/-- The mean of a row: its sum divided by the row length, given as a float word. -/
def rowMean {N : ℕ} (nlit : BitVec 32) (row : Fin N → EReal) : EReal :=
  Ideal.div (∑ k : Fin N, row k) (Ideal.ofBits .f32 nlit)

/-- A row with its mean taken off. -/
def rowCtr {N : ℕ} (nlit : BitVec 32) (row : Fin N → EReal) (j : Fin N) : EReal := row j - rowMean nlit row

/-- The reciprocal standard deviation of an already centred row, with the stabilising ε = f32 1e-5. -/
def rowInv {N : ℕ} (nlit : BitVec 32) (ctr : Fin N → EReal) : EReal :=
  Ideal.rsqrt (rowMean nlit (fun k => ctr k * ctr k) + Ideal.ofBits .f32 0x3727C5AC#32)

/-- The affine part of a layer normalisation, applied to an already centred row. -/
def normOfCtr {N : ℕ} (nlit : BitVec 32) (ctr : Fin N → EReal) (w b : Arr1 N) (j : Fin N) : EReal :=
  ctr j * rowInv nlit ctr * w (ix1 j) + b (ix1 j)

/-- Layer normalisation of a row. -/
def rowNorm {N : ℕ} (nlit : BitVec 32) (row : Fin N → EReal) (w b : Arr1 N) (j : Fin N) : EReal :=
  normOfCtr nlit (rowCtr nlit row) w b j

/-- The float word of 4096.0. -/
abbrev n4096 : BitVec 32 := 0x45800000#32
/-- The float word of 1024.0. -/
abbrev n1024 : BitVec 32 := 0x44800000#32

/-- The topic-conditioned scale of one row: `(topic · Θᵀ + θ) · Bᵀ`. -/
def scaleRow (t : Fin 3 → EReal) (thw : Arr2 3 3) (thb : Arr1 3) (wb : Arr2 128 3) (f : Fin 128) : EReal :=
  rowDot (fun k => rowDot t (tr thw) k + thb (ix1 k)) (tr wb) f

/-- A factorised gate pre-activation of one row: `((x · C) ∘ s) · A`, `C` of shape 1024 × 128, `A` of shape 128 × 4096. -/
def preGate (x : Fin 1024 → EReal) (s : Fin 128 → EReal) (C : Arr2 1024 128) (A : Arr2 128 4096) (j : Fin 4096) : EReal :=
  rowDot (fun f => rowDot x C f * s f) A j

/-- Entry `o + q` of a 4096-row, for a quarter offset `o`. -/
def quarter (o : ℕ) (ho : o + 1024 ≤ 4096) (q : Fin 1024) : Fin 4096 := ⟨o + q.val, by omega⟩

/-- The sum of the two normalised pre-activations. -/
def gatesRow (pi ph : Fin 4096 → EReal) (wi bi wh bh : Arr1 4096) (j : Fin 4096) : EReal :=
  rowNorm n4096 pi wi bi j + rowNorm n4096 ph wh bh j

/-- The new cell state before its normalisation. -/
def cNew (g : Fin 4096 → EReal) (c : Fin 1024 → EReal) (q : Fin 1024) : EReal :=
  Ideal.logistic (g (quarter 1024 (by omega) q)) * c q
    + Ideal.logistic (g (quarter 0 (by omega) q)) * Ideal.tanh (g (quarter 2048 (by omega) q))

/-- The new cell state. -/
def cyOf (g : Fin 4096 → EReal) (c : Fin 1024 → EReal) (wc bc : Arr1 1024) (q : Fin 1024) : EReal :=
  rowNorm n1024 (cNew g c) wc bc q

/-- The new hidden state. -/
def hyOf (g : Fin 4096 → EReal) (c : Fin 1024 → EReal) (wc bc : Arr1 1024) (q : Fin 1024) : EReal :=
  Ideal.logistic (g (quarter 3072 (by omega) q)) * Ideal.tanh (cyOf g c wc bc q)

/-- The gates of one row from the row's inputs, its two scale rows and the (already transposed) weights. -/
def gatesCore (x h : Fin 1024 → EReal) (si sh : Fin 128 → EReal) (Ci : Arr2 1024 128) (Ai : Arr2 128 4096)
    (Ch : Arr2 1024 128) (Ah : Arr2 128 4096) (wi bi wh bh : Arr1 4096) : Fin 4096 → EReal :=
  gatesRow (preGate x si Ci Ai) (preGate h sh Ch Ah) wi bi wh bh

/-- The new cell state of one row, as the kernel's block and the reference's arrays both present it. -/
def cyCore (x h c : Fin 1024 → EReal) (si sh : Fin 128 → EReal) (Ci : Arr2 1024 128) (Ai : Arr2 128 4096)
    (Ch : Arr2 1024 128) (Ah : Arr2 128 4096) (wi bi wh bh : Arr1 4096) (wc bc : Arr1 1024) : Fin 1024 → EReal :=
  cyOf (gatesCore x h si sh Ci Ai Ch Ah wi bi wh bh) c wc bc

/-- The new hidden state of one row. -/
def hyCore (x h c : Fin 1024 → EReal) (si sh : Fin 128 → EReal) (Ci : Arr2 1024 128) (Ai : Arr2 128 4096)
    (Ch : Arr2 1024 128) (Ah : Arr2 128 4096) (wi bi wh bh : Arr1 4096) (wc bc : Arr1 1024) : Fin 1024 → EReal :=
  hyOf (gatesCore x h si sh Ci Ai Ch Ah wi bi wh bh) c wc bc

/-- The whole array of new cell states, of the twenty argument arrays in the programs' order. -/
def cyAll (a0 a1 a2 : Arr2 4096 1024) (a3 : Arr2 4096 3) (a4 : Arr2 4096 128) (a5 : Arr2 128 3) (a6 : Arr2 128 1024)
    (a7 : Arr2 4096 128) (a8 : Arr2 128 3) (a9 : Arr2 128 1024) (a10 : Arr2 3 3) (a11 : Arr1 3) (a12 : Arr2 3 3) (a13 : Arr1 3)
    (a14 a15 a16 a17 : Arr1 4096) (a18 a19 : Arr1 1024) : Arr2 4096 1024 := fun i =>
  cyCore (rowOf a0 ⟨(i 0).val, (i 0).isLt⟩) (rowOf a1 ⟨(i 0).val, (i 0).isLt⟩) (rowOf a2 ⟨(i 0).val, (i 0).isLt⟩)
    (scaleRow (rowOf a3 ⟨(i 0).val, (i 0).isLt⟩) a10 a11 a5) (scaleRow (rowOf a3 ⟨(i 0).val, (i 0).isLt⟩) a12 a13 a8)
    (tr a6) (tr a4) (tr a9) (tr a7) a14 a15 a16 a17 a18 a19 ⟨(i 1).val, (i 1).isLt⟩

/-- The whole array of new hidden states. -/
def hyAll (a0 a1 a2 : Arr2 4096 1024) (a3 : Arr2 4096 3) (a4 : Arr2 4096 128) (a5 : Arr2 128 3) (a6 : Arr2 128 1024)
    (a7 : Arr2 4096 128) (a8 : Arr2 128 3) (a9 : Arr2 128 1024) (a10 : Arr2 3 3) (a11 : Arr1 3) (a12 : Arr2 3 3) (a13 : Arr1 3)
    (a14 a15 a16 a17 : Arr1 4096) (a18 a19 : Arr1 1024) : Arr2 4096 1024 := fun i =>
  hyCore (rowOf a0 ⟨(i 0).val, (i 0).isLt⟩) (rowOf a1 ⟨(i 0).val, (i 0).isLt⟩) (rowOf a2 ⟨(i 0).val, (i 0).isLt⟩)
    (scaleRow (rowOf a3 ⟨(i 0).val, (i 0).isLt⟩) a10 a11 a5) (scaleRow (rowOf a3 ⟨(i 0).val, (i 0).isLt⟩) a12 a13 a8)
    (tr a6) (tr a4) (tr a9) (tr a7) a14 a15 a16 a17 a18 a19 ⟨(i 1).val, (i 1).isLt⟩

theorem cyAll_apply (a0 a1 a2 : Arr2 4096 1024) (a3 : Arr2 4096 3) (a4 : Arr2 4096 128) (a5 : Arr2 128 3) (a6 : Arr2 128 1024)
    (a7 : Arr2 4096 128) (a8 : Arr2 128 3) (a9 : Arr2 128 1024) (a10 : Arr2 3 3) (a11 : Arr1 3) (a12 : Arr2 3 3) (a13 : Arr1 3)
    (a14 a15 a16 a17 : Arr1 4096) (a18 a19 : Arr1 1024) (r : Fin 4096) (q : Fin 1024) :
    cyAll a0 a1 a2 a3 a4 a5 a6 a7 a8 a9 a10 a11 a12 a13 a14 a15 a16 a17 a18 a19 (ix2 r q)
      = cyCore (rowOf a0 r) (rowOf a1 r) (rowOf a2 r) (scaleRow (rowOf a3 r) a10 a11 a5) (scaleRow (rowOf a3 r) a12 a13 a8)
          (tr a6) (tr a4) (tr a9) (tr a7) a14 a15 a16 a17 a18 a19 q := rfl

theorem hyAll_apply (a0 a1 a2 : Arr2 4096 1024) (a3 : Arr2 4096 3) (a4 : Arr2 4096 128) (a5 : Arr2 128 3) (a6 : Arr2 128 1024)
    (a7 : Arr2 4096 128) (a8 : Arr2 128 3) (a9 : Arr2 128 1024) (a10 : Arr2 3 3) (a11 : Arr1 3) (a12 : Arr2 3 3) (a13 : Arr1 3)
    (a14 a15 a16 a17 : Arr1 4096) (a18 a19 : Arr1 1024) (r : Fin 4096) (q : Fin 1024) :
    hyAll a0 a1 a2 a3 a4 a5 a6 a7 a8 a9 a10 a11 a12 a13 a14 a15 a16 a17 a18 a19 (ix2 r q)
      = hyCore (rowOf a0 r) (rowOf a1 r) (rowOf a2 r) (scaleRow (rowOf a3 r) a10 a11 a5) (scaleRow (rowOf a3 r) a12 a13 a8)
          (tr a6) (tr a4) (tr a9) (tr a7) a14 a15 a16 a17 a18 a19 q := rfl

end Cert.Cell

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.LibColumnCast.lean ====
/-
  A vector viewed as a column: a length-a array cast to shape a x 1 (what a row reduction that keeps its axis produces)
  holds, at (p, 0), the vector's entry p.  The companion of the library's leading-unit-axis casts, with the unit axis
  trailing.
-/
import Idealize.ShloMosaic.Lib.Pipeline.Value
import Idealize.ShloMosaic.Lib.ValueLayout

namespace Idealize.ShloMosaic.ValueIdx

open Idealize.ShloMosaic

variable {α : Type}

/-- A length-a vector cast to an a x 1 column reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRows.lean ====
/-
  The kernel body's two stored values, read at an index: row p, column q of each is the cell's row function
  (CellSpec) of row p of the three activation blocks and the two scale blocks, and of the whole weight and
  parameter blocks.
-/
import proofs.«179324_j88115549045316_1_alg».proof.Proof.Gen.KernelIdeal.Skeleton
import proofs.«179324_j88115549045316_1_alg».proof.Proof.CellSpec
import proofs.«179324_j88115549045316_1_alg».proof.Proof.LibPlainDot
import proofs.«179324_j88115549045316_1_alg».proof.Proof.LibColumnCast
import proofs.«179324_j88115549045316_1_alg».proof.Proof.LibColumnBroadcast
import Idealize.ShloMosaic.Lib.ValueLayout
import Idealize.ShloMosaic.Lib.Pipeline.Value
import Idealize.ShloMosaic.PureOps.Ideal.Laws

noncomputable section

namespace Cert.KernelIdeal.Rows

open Idealize.ShloMosaic Idealize.ShloMosaic.ValueIdx Cert.KernelIdeal Cert.KernelIdeal.Gen Cert.Cell

/-! ## A layer normalisation's chain of vector operations, read at an index

Over an array of R rows and N columns: the row sums, the column of row means, the centred array, the column of reciprocal
standard deviations and the affine part, each read at (p, j) as the spec's row function of row p. -/

section Chain

variable {R N : ℕ}

/-- The index a row reduction reads: the row's index with the column inserted. -/
theorem lift_ix (h : (⟨2, ![R, N]⟩ : Shape).Reduces [1] ⟨1, ![R]⟩) (p : Fin R) (k : Fin N) :
    h.lift (ix1 p) k = ix2 p k := by
  funext c
  match c with
  | ⟨0, _⟩ => rfl
  | ⟨1, _⟩ => rfl

/-- A sum along the rows, read at row p, is the sum of row p. -/
theorem rowSum_apply (X : FVec Ideal (⟨2, ![R, N]⟩ : Shape) .f32) (acc : BitVec 32)
    (h : (⟨2, ![R, N]⟩ : Shape).Reduces [1] ⟨1, ![R]⟩) (hφ : FKind.Formats .f32) (hacc : acc = FKind.add.neutral .f32 hφ) (p : Fin R) :
    multiReduction (F := Ideal) .add [1] ⟨1, ![R]⟩ X acc h hφ hacc (ix1 p) = ∑ k : Fin N, X (ix2 p k) :=
  (Ideal.multiReduction_add_single X acc h hφ hacc (ix1 p)).trans
    (Finset.sum_congr rfl fun k _ => congrArg X (lift_ix h p k))

/-- The column of row means: the row sums, kept as a column, divided by the row length's float. -/
theorem meanCol_apply (X : FVec Ideal (⟨2, ![R, N]⟩ : Shape) .f32) (nlit : BitVec 32)
    (h : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (p : Fin R) (u : Fin 1) :
    divf (shapeCast ⟨2, ![R, 1]⟩ (multiReduction (F := Ideal) .add [1] ⟨1, ![R]⟩ X 0x00000000#32 h hφ hacc) hc)
        (broadcast ⟨2, ![R, 1]⟩ (Scalar.ofBits (F := Ideal) .f32 nlit)) (ix2 p u)
      = rowMean nlit (rowOf X p) := by
  refine (divf_apply _ _ _).trans ?_
  rw [shapeCast_a_a1_apply, rowSum_apply]
  rfl

/-- The centred array: each entry less its row's mean. -/
theorem ctr_apply (X : FVec Ideal (⟨2, ![R, N]⟩ : Shape) .f32) (nlit : BitVec 32)
    (h : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, N]⟩)
    (p : Fin R) (j : Fin N) :
    subf X (broadcastTo ⟨2, ![R, N]⟩
        (divf (shapeCast ⟨2, ![R, 1]⟩ (multiReduction (F := Ideal) .add [1] ⟨1, ![R]⟩ X 0x00000000#32 h hφ hacc) hc)
          (broadcast ⟨2, ![R, 1]⟩ (Scalar.ofBits (F := Ideal) .f32 nlit))) hb) (ix2 p j)
      = rowCtr nlit (rowOf X p) j := by
  refine (subf_apply _ _ _).trans ?_
  rw [broadcastTo_a1_ab_apply, meanCol_apply]
  rfl

/-- The column of reciprocal standard deviations of an already centred array. -/
theorem invCol_apply (C : FVec Ideal (⟨2, ![R, N]⟩ : Shape) .f32) (nlit : BitVec 32)
    (h : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (p : Fin R) (u : Fin 1) :
    rsqrt (addf
        (divf (shapeCast ⟨2, ![R, 1]⟩ (multiReduction (F := Ideal) .add [1] ⟨1, ![R]⟩ (mulf C C) 0x00000000#32 h hφ hacc) hc)
          (broadcast ⟨2, ![R, 1]⟩ (Scalar.ofBits (F := Ideal) .f32 nlit)))
        (broadcast ⟨2, ![R, 1]⟩ (Scalar.ofBits (F := Ideal) .f32 0x3727C5AC#32))) (ix2 p u)
      = rowInv nlit (rowOf C p) := by
  show Ideal.rsqrt (_ + _) = _
  rw [meanCol_apply]
  rfl

/-- The affine part on an already centred array: scaled by its row's reciprocal deviation, then by the weights, plus the bias. -/
theorem norm_apply (C : FVec Ideal (⟨2, ![R, N]⟩ : Shape) .f32) (nlit : BitVec 32) (w b : Arr1 N)
    (h : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, N]⟩)
    (hcw : (⟨1, ![N]⟩ : Shape).ShapeCasts ⟨2, ![1, N]⟩) (hbw : (⟨2, ![1, N]⟩ : Shape).Broadcasts ⟨2, ![R, N]⟩)
    (p : Fin R) (j : Fin N) :
    addf (mulf (mulf C (broadcastTo ⟨2, ![R, N]⟩ (rsqrt (addf
        (divf (shapeCast ⟨2, ![R, 1]⟩ (multiReduction (F := Ideal) .add [1] ⟨1, ![R]⟩ (mulf C C) 0x00000000#32 h hφ hacc) hc)
          (broadcast ⟨2, ![R, 1]⟩ (Scalar.ofBits (F := Ideal) .f32 nlit)))
        (broadcast ⟨2, ![R, 1]⟩ (Scalar.ofBits (F := Ideal) .f32 0x3727C5AC#32)))) hb))
        (broadcastTo ⟨2, ![R, N]⟩ (shapeCast ⟨2, ![1, N]⟩ w hcw) hbw))
      (broadcastTo ⟨2, ![R, N]⟩ (shapeCast ⟨2, ![1, N]⟩ b hcw) hbw) (ix2 p j)
      = normOfCtr nlit (rowOf C p) w b j := by
  refine (addf_apply _ _ _).trans ?_
  refine congrArg₂ (· + ·) ((mulf_apply _ _ _).trans (congrArg₂ (· * ·) ((mulf_apply _ _ _).trans (congrArg₂ (· * ·) rfl ?_)) ?_)) ?_
  · rw [broadcastTo_a1_ab_apply, invCol_apply]
  · rw [broadcastTo_1b_ab_apply, shapeCast_a_1a_apply]
  · rw [broadcastTo_1b_ab_apply, shapeCast_a_1a_apply]

/-- A whole layer normalisation: centre, then the affine part. -/
theorem ln_apply (X : FVec Ideal (⟨2, ![R, N]⟩ : Shape) .f32) (nlit : BitVec 32) (w b : Arr1 N)
    (h : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, N]⟩)
    (hcw : (⟨1, ![N]⟩ : Shape).ShapeCasts ⟨2, ![1, N]⟩) (hbw : (⟨2, ![1, N]⟩ : Shape).Broadcasts ⟨2, ![R, N]⟩)
    (C : FVec Ideal (⟨2, ![R, N]⟩ : Shape) .f32)
    (hC : C = subf X (broadcastTo ⟨2, ![R, N]⟩
        (divf (shapeCast ⟨2, ![R, 1]⟩ (multiReduction (F := Ideal) .add [1] ⟨1, ![R]⟩ X 0x00000000#32 h hφ hacc) hc)
          (broadcast ⟨2, ![R, 1]⟩ (Scalar.ofBits (F := Ideal) .f32 nlit))) hb))
    (p : Fin R) (j : Fin N) :
    addf (mulf (mulf C (broadcastTo ⟨2, ![R, N]⟩ (rsqrt (addf
        (divf (shapeCast ⟨2, ![R, 1]⟩ (multiReduction (F := Ideal) .add [1] ⟨1, ![R]⟩ (mulf C C) 0x00000000#32 h hφ hacc) hc)
          (broadcast ⟨2, ![R, 1]⟩ (Scalar.ofBits (F := Ideal) .f32 nlit)))
        (broadcast ⟨2, ![R, 1]⟩ (Scalar.ofBits (F := Ideal) .f32 0x3727C5AC#32)))) hb))
        (broadcastTo ⟨2, ![R, N]⟩ (shapeCast ⟨2, ![1, N]⟩ w hcw) hbw))
      (broadcastTo ⟨2, ![R, N]⟩ (shapeCast ⟨2, ![1, N]⟩ b hcw) hbw) (ix2 p j)
      = rowNorm nlit (rowOf X p) w b j := by
  refine (norm_apply C nlit w b h hφ hacc hc hb hcw hbw p j).trans ?_
  have hrow : rowOf C p = rowCtr nlit (rowOf X p) := funext fun k => by
    subst hC
    exact ctr_apply X nlit h hφ hacc hc hb p k
  show normOfCtr nlit (rowOf C p) w b j = normOfCtr nlit (rowCtr nlit (rowOf X p)) w b j
  rw [hrow]

end Chain

/-! ## The factorised pre-activation at an index -/

/-- Equal factors give equal products. -/
theorem mul_congr {a b c d : EReal} (h1 : a = c) (h2 : b = d) : a * b = c * d := by rw [h1, h2]

/-- Two matrix products into zero accumulators, the scale multiplied in between (the format changes are the identity
    on extended reals): entry (p, j) is the spec's pre-activation of row p. -/
theorem pre_apply (v0 : FVec Ideal S128x1024 .f32) (v5 : FVec Ideal S128x128 .f32) (v9 : FVec Ideal S1024x128 .bf16)
    (v11 : FVec Ideal S128x4096 .bf16) (hlt : FTy.bits .bf16 < FTy.bits .f32) (h5 : S128x128.ShapeCasts S128x128)
    (h9 : S1024x128.ShapeCasts S1024x128) (h11 : S128x4096.ShapeCasts S128x4096) (p : Fin 128) (j : Fin 4096) :
    FloatOps.matmul (F := Ideal) dot_S128x128_S128x4096_S128x4096_1_0_0_1_n_n none
        (truncf .bf16 (mulf
          (FloatOps.matmul (F := Ideal) dot_S128x1024_S1024x128_S128x128_1_0_0_1_n_n none (truncf .bf16 v0 hlt)
            (shapeCast S1024x128 v9 h9) (constant (F := Ideal) S128x128 .f32 0x00000000#32))
          (shapeCast S128x128 v5 h5)) hlt)
        (shapeCast S128x4096 v11 h11) (constant (F := Ideal) S128x4096 .f32 0x00000000#32) (ix2 p j)
      = preGate (rowOf v0 p) (rowOf v5 p) v9 v11 j := by
  rw [shapeCast_self, shapeCast_self, shapeCast_self]
  refine (plain_matmul_zero_apply (M := 128) (K := 128) (N := 4096) none _ _ (ix2 p j)).trans ?_
  show _ = ∑ f : Fin 128, (∑ i : Fin 1024, v0 (ix2 p i) * v9 (ix2 i f)) * v5 (ix2 p f) * v11 (ix2 f j)
  refine Finset.sum_congr rfl fun f _ => ?_
  show FloatOps.matmul (F := Ideal) dot_S128x1024_S1024x128_S128x128_1_0_0_1_n_n none (truncf .bf16 v0 hlt) v9
          (constant (F := Ideal) S128x128 .f32 0x00000000#32) (ix2 p f) * v5 (ix2 p f) * v11 (ix2 f j)
      = (∑ i : Fin 1024, v0 (ix2 p i) * v9 (ix2 i f)) * v5 (ix2 p f) * v11 (ix2 f j)
  exact mul_congr (mul_congr
    (plain_matmul_zero_apply (M := 128) (K := 1024) (N := 128) none (truncf .bf16 v0 hlt) v9 (ix2 p f)) rfl) rfl

/-- The hidden side's pre-activation. -/
theorem k0_pay3_apply (v2 : Vec Ideal S128x1024 .f32) (v7 : Vec Ideal S128x128 .f32) (v13 : Vec Ideal S1024x128 .bf16)
    (v15 : Vec Ideal S128x4096 .bf16) (p : Fin 128) (j : Fin 4096) :
    k0_pay3 v2 v7 v13 v15 (ix2 p j) = preGate (rowOf v2 p) (rowOf v7 p) v13 v15 j := by
  unfold k0_pay3
  exact pre_apply v2 v7 v13 v15 _ _ _ _ p j

/-- The input side's pre-activation, with its row mean already taken off. -/
theorem k0_pay4_apply (v0 : Vec Ideal S128x1024 .f32) (v5 : Vec Ideal S128x128 .f32) (v9 : Vec Ideal S1024x128 .bf16)
    (v11 : Vec Ideal S128x4096 .bf16) (p : Fin 128) (j : Fin 4096) :
    k0_pay4 v0 v5 v9 v11 (ix2 p j) = rowCtr n4096 (preGate (rowOf v0 p) (rowOf v5 p) v9 v11) j := by
  unfold k0_pay4
  refine (ctr_apply _ n4096 _ _ _ _ _ p j).trans ?_
  exact congrArg (fun r => rowCtr n4096 r j) (funext fun k => pre_apply v0 v5 v9 v11 _ _ _ _ p k)

/-! ## The gate payloads at an index -/

/-- The two normalised pre-activations, summed: the first operand arrives already centred. -/
theorem k0_pay5_apply (v24 : FVec Ideal S128x4096 .f32) (v25 v26 : Vec Ideal S4096 .f32) (v32 : FVec Ideal S128x4096 .f32)
    (v49 v50 : Vec Ideal S4096 .f32) (p : Fin 128) (j : Fin 4096) :
    k0_pay5 v24 v25 v26 v32 v49 v50 (ix2 p j)
      = normOfCtr n4096 (rowOf v32 p) v25 v26 j + rowNorm n4096 (rowOf v24 p) v49 v50 j := by
  unfold k0_pay5
  refine (addf_apply _ _ _).trans ?_
  exact congrArg₂ (· + ·) (norm_apply v32 n4096 v25 v26 _ _ _ _ _ _ _ p j)
    (ln_apply v24 n4096 v49 v50 _ _ _ _ _ _ _ _ rfl p j)

/-- A quarter of the 4096 columns, cut out from offset o, reads the source at column o + q. -/
theorem slice_quarter (G : FVec Ideal S128x4096 .f32) (o : ℕ) (ho : o + 1024 ≤ 4096)
    (h : S128x4096.Slices ![0, o] S128x1024) (p : Fin 128) (q : Fin 1024) :
    extractStridedSlice S128x1024 ![0, o] G h (ix2 p q) = G (ix2 p (quarter o ho q)) :=
  slice2_axis1_apply o G h p q (quarter o ho q) rfl

section Gates

variable (v24 : FVec Ideal S128x4096 .f32) (v25 v26 : Vec Ideal S4096 .f32) (v32 : FVec Ideal S128x4096 .f32)
  (v49 v50 : Vec Ideal S4096 .f32) (p : Fin 128) (q : Fin 1024)

/-- The logistic of the first quarter of the gates. -/
theorem k0_pay6_apply :
    k0_pay6 v24 v25 v26 v32 v49 v50 (ix2 p q)
      = Ideal.logistic (k0_pay5 v24 v25 v26 v32 v49 v50 (ix2 p (quarter 0 (by omega) q))) :=
  congrArg Ideal.logistic (slice_quarter _ 0 (by omega) _ p q)

/-- The hyperbolic tangent of the third quarter of the gates. -/
theorem k0_pay7_apply :
    k0_pay7 v24 v25 v26 v32 v49 v50 (ix2 p q)
      = Ideal.tanh (k0_pay5 v24 v25 v26 v32 v49 v50 (ix2 p (quarter 2048 (by omega) q))) :=
  congrArg Ideal.tanh (slice_quarter _ 2048 (by omega) _ p q)

/-- The logistic of the last quarter of the gates. -/
theorem k0_pay8_apply :
    k0_pay8 v24 v25 v26 v32 v49 v50 (ix2 p q)
      = Ideal.logistic (k0_pay5 v24 v25 v26 v32 v49 v50 (ix2 p (quarter 3072 (by omega) q))) :=
  congrArg Ideal.logistic (slice_quarter _ 3072 (by omega) _ p q)

/-- The logistic of the second quarter of the gates, times the old cell state. -/
theorem k0_pay9_apply (v4 : Vec Ideal S128x1024 .f32) :
    k0_pay9 v4 v24 v25 v26 v32 v49 v50 (ix2 p q)
      = Ideal.logistic (k0_pay5 v24 v25 v26 v32 v49 v50 (ix2 p (quarter 1024 (by omega) q))) * v4 (ix2 p q) :=
  congrArg (fun t => Ideal.logistic t * v4 (ix2 p q)) (slice_quarter _ 1024 (by omega) _ p q)

/-- The new cell state: the layer normalisation of the row  v82 + v75 ∘ v79. -/
theorem k0_pay1_apply (v75 v79 v82 : FVec Ideal S128x1024 .f32) (v85 v86 : Vec Ideal S1024 .f32) :
    k0_pay1 v75 v79 v82 v85 v86 (ix2 p q)
      = rowNorm n1024 (fun k => v82 (ix2 p k) + v75 (ix2 p k) * v79 (ix2 p k)) v85 v86 q := by
  unfold k0_pay1
  exact ln_apply (addf v82 (mulf v75 v79)) n1024 v85 v86 _ _ _ _ _ _ _ _ rfl p q

/-- The new hidden state: the output gate times the hyperbolic tangent of the new cell state. -/
theorem k0_pay2_apply (v75 v79 v81 v82 : FVec Ideal S128x1024 .f32) (v85 v86 : Vec Ideal S1024 .f32) :
    k0_pay2 v75 v79 v81 v82 v85 v86 (ix2 p q)
      = v81 (ix2 p q) * Ideal.tanh (k0_pay1 v75 v79 v82 v85 v86 (ix2 p q)) := rfl

end Gates

/-! ## The two stored blocks -/

/-- What the body stores to the hidden-state output block, of the fifteen input blocks. -/
def hyBlock (x0 x1 x2 : Vec Ideal S128x1024 .f32) (x3 x4 : Vec Ideal S128x128 .f32) (x5 : Vec Ideal S1024x128 .bf16) (x6 : Vec Ideal S128x4096 .bf16) (x7 : Vec Ideal S1024x128 .bf16) (x8 : Vec Ideal S128x4096 .bf16) (x9 x10 x11 x12 : Vec Ideal S4096 .f32) (x13 x14 : Vec Ideal S1024 .f32) : Vec Ideal S128x1024 .f32 :=
  k0_pay2 (F := Ideal) (k0_pay6 (k0_pay3 x1 x4 x7 x8) x9 x10 (k0_pay4 x0 x3 x5 x6) x11 x12) (k0_pay7 (k0_pay3 x1 x4 x7 x8) x9 x10 (k0_pay4 x0 x3 x5 x6) x11 x12) (k0_pay8 (k0_pay3 x1 x4 x7 x8) x9 x10 (k0_pay4 x0 x3 x5 x6) x11 x12) (k0_pay9 x2 (k0_pay3 x1 x4 x7 x8) x9 x10 (k0_pay4 x0 x3 x5 x6) x11 x12) x13 x14

/-- What the body stores to the cell-state output block. -/
def cyBlock (x0 x1 x2 : Vec Ideal S128x1024 .f32) (x3 x4 : Vec Ideal S128x128 .f32) (x5 : Vec Ideal S1024x128 .bf16) (x6 : Vec Ideal S128x4096 .bf16) (x7 : Vec Ideal S1024x128 .bf16) (x8 : Vec Ideal S128x4096 .bf16) (x9 x10 x11 x12 : Vec Ideal S4096 .f32) (x13 x14 : Vec Ideal S1024 .f32) : Vec Ideal S128x1024 .f32 :=
  k0_pay1 (F := Ideal) (k0_pay6 (k0_pay3 x1 x4 x7 x8) x9 x10 (k0_pay4 x0 x3 x5 x6) x11 x12) (k0_pay7 (k0_pay3 x1 x4 x7 x8) x9 x10 (k0_pay4 x0 x3 x5 x6) x11 x12) (k0_pay9 x2 (k0_pay3 x1 x4 x7 x8) x9 x10 (k0_pay4 x0 x3 x5 x6) x11 x12) x13 x14

section Blocks

variable (x0 x1 : Vec Ideal S128x1024 .f32) (x3 x4 : Vec Ideal S128x128 .f32) (x5 : Vec Ideal S1024x128 .bf16)
  (x6 : Vec Ideal S128x4096 .bf16) (x7 : Vec Ideal S1024x128 .bf16) (x8 : Vec Ideal S128x4096 .bf16)
  (x9 x10 x11 x12 : Vec Ideal S4096 .f32) (p : Fin 128)

/-- The gates of row p as the body computes them (the hidden side's pre-activation normalised whole, the input side's
    from its centred form) are the spec's gates of row p. -/
theorem gates_apply (j : Fin 4096) :
    k0_pay5 (k0_pay3 x1 x4 x7 x8) x9 x10 (k0_pay4 x0 x3 x5 x6) x11 x12 (ix2 p j)
      = gatesCore (rowOf x0 p) (rowOf x1 p) (rowOf x3 p) (rowOf x4 p) x5 x6 x7 x8 x9 x10 x11 x12 j := by
  refine (k0_pay5_apply _ x9 x10 _ x11 x12 p j).trans ?_
  have h4 : rowOf (k0_pay4 x0 x3 x5 x6) p = rowCtr n4096 (preGate (rowOf x0 p) (rowOf x3 p) x5 x6) :=
    funext fun k => k0_pay4_apply x0 x3 x5 x6 p k
  have h3 : rowOf (k0_pay3 x1 x4 x7 x8) p = preGate (rowOf x1 p) (rowOf x4 p) x7 x8 :=
    funext fun k => k0_pay3_apply x1 x4 x7 x8 p k
  rw [h4, h3]
  rfl

end Blocks

/-- Row p of the stored cell-state block is the row function of row p of the blocks. -/
theorem cyBlock_apply (x0 x1 x2 : Vec Ideal S128x1024 .f32) (x3 x4 : Vec Ideal S128x128 .f32) (x5 : Vec Ideal S1024x128 .bf16) (x6 : Vec Ideal S128x4096 .bf16) (x7 : Vec Ideal S1024x128 .bf16) (x8 : Vec Ideal S128x4096 .bf16) (x9 x10 x11 x12 : Vec Ideal S4096 .f32) (x13 x14 : Vec Ideal S1024 .f32) (p : Fin 128) (q : Fin 1024) :
    cyBlock x0 x1 x2 x3 x4 x5 x6 x7 x8 x9 x10 x11 x12 x13 x14 (ix2 p q)
      = cyCore (rowOf x0 p) (rowOf x1 p) (rowOf x2 p) (rowOf x3 p) (rowOf x4 p) x5 x6 x7 x8 x9 x10 x11 x12 x13 x14 q := by
  unfold cyBlock
  refine (k0_pay1_apply p q _ _ _ x13 x14).trans ?_
  show rowNorm n1024 _ x13 x14 q = rowNorm n1024 (cNew (gatesCore (rowOf x0 p) (rowOf x1 p) (rowOf x3 p) (rowOf x4 p) x5 x6 x7 x8 x9 x10 x11 x12) (rowOf x2 p)) x13 x14 q
  refine congrArg (fun r => rowNorm n1024 r x13 x14 q) (funext fun k => ?_)
  rw [k0_pay9_apply, k0_pay6_apply, k0_pay7_apply, gates_apply, gates_apply, gates_apply]
  rfl

/-- Row p of the stored hidden-state block is the row function of row p of the blocks. -/
theorem hyBlock_apply (x0 x1 x2 : Vec Ideal S128x1024 .f32) (x3 x4 : Vec Ideal S128x128 .f32) (x5 : Vec Ideal S1024x128 .bf16) (x6 : Vec Ideal S128x4096 .bf16) (x7 : Vec Ideal S1024x128 .bf16) (x8 : Vec Ideal S128x4096 .bf16) (x9 x10 x11 x12 : Vec Ideal S4096 .f32) (x13 x14 : Vec Ideal S1024 .f32) (p : Fin 128) (q : Fin 1024) :
    hyBlock x0 x1 x2 x3 x4 x5 x6 x7 x8 x9 x10 x11 x12 x13 x14 (ix2 p q)
      = hyCore (rowOf x0 p) (rowOf x1 p) (rowOf x2 p) (rowOf x3 p) (rowOf x4 p) x5 x6 x7 x8 x9 x10 x11 x12 x13 x14 q := by
  unfold hyBlock
  refine (k0_pay2_apply p q _ _ _ _ x13 x14).trans ?_
  refine mul_congr ?_ (congrArg Ideal.tanh (cyBlock_apply x0 x1 x2 x3 x4 x5 x6 x7 x8 x9 x10 x11 x12 x13 x14 p q))
  rw [k0_pay8_apply, gates_apply]

end Cert.KernelIdeal.Rows

end
-- ==== Proof.KernelBlocks.lean ====
/-
  From blocks to arrays.  Grid point t of the kernel stages rows 128·t … 128·t + 127 of the three activation arrays
  and of the two scale arrays, and the whole of every weight and parameter array; what it writes back is rows
  128·t … 128·t + 127 of the two results.  Each written row is the cell's row function (CellSpec) of that row of the
  inputs, so the 32 written blocks tile each result array with the row function of the program's arguments.
  The scale arrays and the transposed weights are computed by host operations before the kernel is launched: the
  scale is the topic row times Θᵀ plus θ, times Bᵀ; a transposed weight read at (k, f) is the weight at (f, k).
-/
import proofs.«179324_j88115549045316_1_alg».proof.Proof.KernelIdealValue
import proofs.«179324_j88115549045316_1_alg».proof.Proof.KernelRows
import proofs.«179324_j88115549045316_1_alg».proof.Proof.CellSpec
import proofs.«179324_j88115549045316_1_alg».proof.Proof.LibPlainDot
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Blocks

open Cert.KernelIdeal Cert.KernelIdeal.Gen Cert.KernelIdeal.Value Cert.KernelIdeal.Rows Cert.Cell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## What the body leaves in the two output blocks -/

/-- The hidden-state block after the body is the stored value. -/
theorem out15_eq (x0 x1 x2 : Vec Ideal S128x1024 .f32) (x3 x4 : Vec Ideal S128x128 .f32) (x5 : Vec Ideal S1024x128 .bf16) (x6 : Vec Ideal S128x4096 .bf16) (x7 : Vec Ideal S1024x128 .bf16) (x8 : Vec Ideal S128x4096 .bf16) (x9 x10 x11 x12 : Vec Ideal S4096 .f32) (x13 x14 : Vec Ideal S1024 .f32) :
    out0_15 (F := Ideal) x0 x1 x2 x3 x4 x5 x6 x7 x8 x9 x10 x11 x12 x13 x14 = hyBlock x0 x1 x2 x3 x4 x5 x6 x7 x8 x9 x10 x11 x12 x13 x14 := by
  unfold out0_15
  rw [View.canon_unit_zero hz2]
  simp only [View.ld_unit_zero (S := S128x1024) hz2, View.ld_unit_zero (S := S128x128) hz2, View.ld_unit_zero (S := S1024x128) hz2,
    View.ld_unit_zero (S := S128x4096) hz2, View.ld_unit_zero (S := S4096) hz1, View.ld_unit_zero (S := S1024) hz1]
  rfl

/-- The cell-state block after the body is the stored value. -/
theorem out16_eq (x0 x1 x2 : Vec Ideal S128x1024 .f32) (x3 x4 : Vec Ideal S128x128 .f32) (x5 : Vec Ideal S1024x128 .bf16) (x6 : Vec Ideal S128x4096 .bf16) (x7 : Vec Ideal S1024x128 .bf16) (x8 : Vec Ideal S128x4096 .bf16) (x9 x10 x11 x12 : Vec Ideal S4096 .f32) (x13 x14 : Vec Ideal S1024 .f32) :
    out0_16 (F := Ideal) x0 x1 x2 x3 x4 x5 x6 x7 x8 x9 x10 x11 x12 x13 x14 = cyBlock x0 x1 x2 x3 x4 x5 x6 x7 x8 x9 x10 x11 x12 x13 x14 := by
  unfold out0_16
  rw [View.canon_unit_zero hz2]
  simp only [View.ld_unit_zero (S := S128x1024) hz2, View.ld_unit_zero (S := S128x128) hz2, View.ld_unit_zero (S := S1024x128) hz2,
    View.ld_unit_zero (S := S128x4096) hz2, View.ld_unit_zero (S := S4096) hz1, View.ld_unit_zero (S := S1024) hz1]
  rfl

/-! ## The printed index maps, decided over the 32 grid points -/

/-- The row-blocked windows (the three activations, the two scales, the two results) sit at block (t, 0) at point t;
    every weight and parameter window sits at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ win0_9.index t (0 : Fin 1) = 0
    ∧ win0_10.index t (0 : Fin 1) = 0
    ∧ win0_11.index t (0 : Fin 1) = 0
    ∧ win0_12.index t (0 : Fin 1) = 0
    ∧ win0_13.index t (0 : Fin 1) = 0
    ∧ win0_14.index t (0 : Fin 1) = 0
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

theorem t_lt : ∀ t : Fin cfg0.N, t.val < 32 := (by decide +kernel : ∀ t : Fin grid0.N, _)

/-- Every block row of a result is some point's. -/
theorem idx_onto15 : ∀ q0 : Fin 32, ∃ t : Fin cfg0.N, win0_15.index t = ![q0.val, 0] :=
  (by decide +kernel : ∀ q0 : Fin 32, ∃ t : Fin grid0.N, win0_15.index t = ![q0.val, 0])
theorem idx_onto16 : ∀ q0 : Fin 32, ∃ t : Fin cfg0.N, win0_16.index t = ![q0.val, 0] :=
  (by decide +kernel : ∀ q0 : Fin 32, ∃ t : Fin grid0.N, win0_16.index t = ![q0.val, 0])

/-- Row 128·t + p of an array: row p of point t's block. -/
def rowAt (t : Fin cfg0.N) (p : Fin 128) : Fin 4096 := ⟨t.val * 128 + p.val, by have := t_lt t; have := p.isLt; omega⟩

/-! ## The input blocks, read off the arrays as the kernel finds them -/

/-- Row p of window 0's block at point t is row 128·t + p of its array. -/
theorem blk0 (c : Dev nD) (t : Fin cfg0.N) (p : Fin 128) (k : Fin 1024) :
    iblk m c 0 t (ix2 p k) = V m c main_arg0 (ix2 (rowAt t p) k) := by
  have h : ((cfg0.win 0).blk t).view.emb (ix2 p k) = ix2 (rowAt t p) k := by
    funext a; apply Fin.ext
    obtain ⟨⟨e0, e1⟩, -⟩ := idx_facts t
    match a with
    | ⟨0, _⟩ => show win0_0.index t (0 : Fin 2) * 128 + 1 * p.val = t.val * 128 + p.val; rw [e0, Nat.one_mul]
    | ⟨1, _⟩ => show win0_0.index t (1 : Fin 2) * 1024 + 1 * k.val = k.val; rw [e1]; omega
  show V m c main_arg0 (((cfg0.win 0).blk t).view.emb (ix2 p k)) = _
  rw [h]

/-- Row p of window 1's block at point t is row 128·t + p of its array. -/
theorem blk1 (c : Dev nD) (t : Fin cfg0.N) (p : Fin 128) (k : Fin 1024) :
    iblk m c 1 t (ix2 p k) = V m c main_arg1 (ix2 (rowAt t p) k) := by
  have h : ((cfg0.win 1).blk t).view.emb (ix2 p k) = ix2 (rowAt t p) k := by
    funext a; apply Fin.ext
    obtain ⟨-, ⟨e0, e1⟩, -⟩ := idx_facts t
    match a with
    | ⟨0, _⟩ => show win0_1.index t (0 : Fin 2) * 128 + 1 * p.val = t.val * 128 + p.val; rw [e0, Nat.one_mul]
    | ⟨1, _⟩ => show win0_1.index t (1 : Fin 2) * 1024 + 1 * k.val = k.val; rw [e1]; omega
  show V m c main_arg1 (((cfg0.win 1).blk t).view.emb (ix2 p k)) = _
  rw [h]

/-- Row p of window 2's block at point t is row 128·t + p of its array. -/
theorem blk2 (c : Dev nD) (t : Fin cfg0.N) (p : Fin 128) (k : Fin 1024) :
    iblk m c 2 t (ix2 p k) = V m c main_arg2 (ix2 (rowAt t p) k) := by
  have h : ((cfg0.win 2).blk t).view.emb (ix2 p k) = ix2 (rowAt t p) k := by
    funext a; apply Fin.ext
    obtain ⟨-, -, ⟨e0, e1⟩, -⟩ := idx_facts t
    match a with
    | ⟨0, _⟩ => show win0_2.index t (0 : Fin 2) * 128 + 1 * p.val = t.val * 128 + p.val; rw [e0, Nat.one_mul]
    | ⟨1, _⟩ => show win0_2.index t (1 : Fin 2) * 1024 + 1 * k.val = k.val; rw [e1]; omega
  show V m c main_arg2 (((cfg0.win 2).blk t).view.emb (ix2 p k)) = _
  rw [h]

/-- Row p of window 3's block at point t is row 128·t + p of its array. -/
theorem blk3 (c : Dev nD) (t : Fin cfg0.N) (p : Fin 128) (k : Fin 128) :
    iblk m c 3 t (ix2 p k) = V m c main_v6 (ix2 (rowAt t p) k) := by
  have h : ((cfg0.win 3).blk t).view.emb (ix2 p k) = ix2 (rowAt t p) k := by
    funext a; apply Fin.ext
    obtain ⟨-, -, -, ⟨e0, e1⟩, -⟩ := idx_facts t
    match a with
    | ⟨0, _⟩ => show win0_3.index t (0 : Fin 2) * 128 + 1 * p.val = t.val * 128 + p.val; rw [e0, Nat.one_mul]
    | ⟨1, _⟩ => show win0_3.index t (1 : Fin 2) * 128 + 1 * k.val = k.val; rw [e1]; omega
  show V m c main_v6 (((cfg0.win 3).blk t).view.emb (ix2 p k)) = _
  rw [h]

/-- Row p of window 4's block at point t is row 128·t + p of its array. -/
theorem blk4 (c : Dev nD) (t : Fin cfg0.N) (p : Fin 128) (k : Fin 128) :
    iblk m c 4 t (ix2 p k) = V m c main_v13 (ix2 (rowAt t p) k) := by
  have h : ((cfg0.win 4).blk t).view.emb (ix2 p k) = ix2 (rowAt t p) k := by
    funext a; apply Fin.ext
    obtain ⟨-, -, -, -, ⟨e0, e1⟩, -⟩ := idx_facts t
    match a with
    | ⟨0, _⟩ => show win0_4.index t (0 : Fin 2) * 128 + 1 * p.val = t.val * 128 + p.val; rw [e0, Nat.one_mul]
    | ⟨1, _⟩ => show win0_4.index t (1 : Fin 2) * 128 + 1 * k.val = k.val; rw [e1]; omega
  show V m c main_v13 (((cfg0.win 4).blk t).view.emb (ix2 p k)) = _
  rw [h]

/-- Window 5's block is its whole array at every point. -/
theorem blk5 (c : Dev nD) (t : Fin cfg0.N) : iblk m c 5 t = V m c main_v15 := by
  funext y
  have h : ((cfg0.win 5).blk t).view.emb y = y := by
    funext a; apply Fin.ext
    obtain ⟨-, -, -, -, -, ⟨e0, e1⟩, -⟩ := idx_facts t
    match a with
    | ⟨0, _⟩ => show win0_5.index t (0 : Fin 2) * 1024 + 1 * (y 0).val = (y 0).val; rw [e0]; omega
    | ⟨1, _⟩ => show win0_5.index t (1 : Fin 2) * 128 + 1 * (y 1).val = (y 1).val; rw [e1]; omega
  show V m c main_v15 (((cfg0.win 5).blk t).view.emb y) = V m c main_v15 y
  rw [h]

/-- Window 6's block is its whole array at every point. -/
theorem blk6 (c : Dev nD) (t : Fin cfg0.N) : iblk m c 6 t = V m c main_v17 := by
  funext y
  have h : ((cfg0.win 6).blk t).view.emb y = y := by
    funext a; apply Fin.ext
    obtain ⟨-, -, -, -, -, -, ⟨e0, e1⟩, -⟩ := idx_facts t
    match a with
    | ⟨0, _⟩ => show win0_6.index t (0 : Fin 2) * 128 + 1 * (y 0).val = (y 0).val; rw [e0]; omega
    | ⟨1, _⟩ => show win0_6.index t (1 : Fin 2) * 4096 + 1 * (y 1).val = (y 1).val; rw [e1]; omega
  show V m c main_v17 (((cfg0.win 6).blk t).view.emb y) = V m c main_v17 y
  rw [h]

/-- Window 7's block is its whole array at every point. -/
theorem blk7 (c : Dev nD) (t : Fin cfg0.N) : iblk m c 7 t = V m c main_v19 := by
  funext y
  have h : ((cfg0.win 7).blk t).view.emb y = y := by
    funext a; apply Fin.ext
    obtain ⟨-, -, -, -, -, -, -, ⟨e0, e1⟩, -⟩ := idx_facts t
    match a with
    | ⟨0, _⟩ => show win0_7.index t (0 : Fin 2) * 1024 + 1 * (y 0).val = (y 0).val; rw [e0]; omega
    | ⟨1, _⟩ => show win0_7.index t (1 : Fin 2) * 128 + 1 * (y 1).val = (y 1).val; rw [e1]; omega
  show V m c main_v19 (((cfg0.win 7).blk t).view.emb y) = V m c main_v19 y
  rw [h]

/-- Window 8's block is its whole array at every point. -/
theorem blk8 (c : Dev nD) (t : Fin cfg0.N) : iblk m c 8 t = V m c main_v21 := by
  funext y
  have h : ((cfg0.win 8).blk t).view.emb y = y := by
    funext a; apply Fin.ext
    obtain ⟨-, -, -, -, -, -, -, -, ⟨e0, e1⟩, -⟩ := idx_facts t
    match a with
    | ⟨0, _⟩ => show win0_8.index t (0 : Fin 2) * 128 + 1 * (y 0).val = (y 0).val; rw [e0]; omega
    | ⟨1, _⟩ => show win0_8.index t (1 : Fin 2) * 4096 + 1 * (y 1).val = (y 1).val; rw [e1]; omega
  show V m c main_v21 (((cfg0.win 8).blk t).view.emb y) = V m c main_v21 y
  rw [h]

/-- Window 9's block is its whole array at every point. -/
theorem blk9 (c : Dev nD) (t : Fin cfg0.N) : iblk m c 9 t = V m c main_arg14 := by
  funext y
  have h : ((cfg0.win 9).blk t).view.emb y = y := by
    funext a; apply Fin.ext
    obtain ⟨-, -, -, -, -, -, -, -, -, e0, -⟩ := idx_facts t
    match a with
    | ⟨0, _⟩ => show win0_9.index t (0 : Fin 1) * 4096 + 1 * (y 0).val = (y 0).val; rw [e0]; omega
  show V m c main_arg14 (((cfg0.win 9).blk t).view.emb y) = V m c main_arg14 y
  rw [h]

/-- Window 10's block is its whole array at every point. -/
theorem blk10 (c : Dev nD) (t : Fin cfg0.N) : iblk m c 10 t = V m c main_arg15 := by
  funext y
  have h : ((cfg0.win 10).blk t).view.emb y = y := by
    funext a; apply Fin.ext
    obtain ⟨-, -, -, -, -, -, -, -, -, -, e0, -⟩ := idx_facts t
    match a with
    | ⟨0, _⟩ => show win0_10.index t (0 : Fin 1) * 4096 + 1 * (y 0).val = (y 0).val; rw [e0]; omega
  show V m c main_arg15 (((cfg0.win 10).blk t).view.emb y) = V m c main_arg15 y
  rw [h]

/-- Window 11's block is its whole array at every point. -/
theorem blk11 (c : Dev nD) (t : Fin cfg0.N) : iblk m c 11 t = V m c main_arg16 := by
  funext y
  have h : ((cfg0.win 11).blk t).view.emb y = y := by
    funext a; apply Fin.ext
    obtain ⟨-, -, -, -, -, -, -, -, -, -, -, e0, -⟩ := idx_facts t
    match a with
    | ⟨0, _⟩ => show win0_11.index t (0 : Fin 1) * 4096 + 1 * (y 0).val = (y 0).val; rw [e0]; omega
  show V m c main_arg16 (((cfg0.win 11).blk t).view.emb y) = V m c main_arg16 y
  rw [h]

/-- Window 12's block is its whole array at every point. -/
theorem blk12 (c : Dev nD) (t : Fin cfg0.N) : iblk m c 12 t = V m c main_arg17 := by
  funext y
  have h : ((cfg0.win 12).blk t).view.emb y = y := by
    funext a; apply Fin.ext
    obtain ⟨-, -, -, -, -, -, -, -, -, -, -, -, e0, -⟩ := idx_facts t
    match a with
    | ⟨0, _⟩ => show win0_12.index t (0 : Fin 1) * 4096 + 1 * (y 0).val = (y 0).val; rw [e0]; omega
  show V m c main_arg17 (((cfg0.win 12).blk t).view.emb y) = V m c main_arg17 y
  rw [h]

/-- Window 13's block is its whole array at every point. -/
theorem blk13 (c : Dev nD) (t : Fin cfg0.N) : iblk m c 13 t = V m c main_arg18 := by
  funext y
  have h : ((cfg0.win 13).blk t).view.emb y = y := by
    funext a; apply Fin.ext
    obtain ⟨-, -, -, -, -, -, -, -, -, -, -, -, -, e0, -⟩ := idx_facts t
    match a with
    | ⟨0, _⟩ => show win0_13.index t (0 : Fin 1) * 1024 + 1 * (y 0).val = (y 0).val; rw [e0]; omega
  show V m c main_arg18 (((cfg0.win 13).blk t).view.emb y) = V m c main_arg18 y
  rw [h]

/-- Window 14's block is its whole array at every point. -/
theorem blk14 (c : Dev nD) (t : Fin cfg0.N) : iblk m c 14 t = V m c main_arg19 := by
  funext y
  have h : ((cfg0.win 14).blk t).view.emb y = y := by
    funext a; apply Fin.ext
    obtain ⟨-, -, -, -, -, -, -, -, -, -, -, -, -, -, e0, -⟩ := idx_facts t
    match a with
    | ⟨0, _⟩ => show win0_14.index t (0 : Fin 1) * 1024 + 1 * (y 0).val = (y 0).val; rw [e0]; omega
  show V m c main_arg19 (((cfg0.win 14).blk t).view.emb y) = V m c main_arg19 y
  rw [h]

/-! ## The arrays the host operations before the launch compute -/

/-- The staged weight `main_v15` is argument 6 transposed (the change of float format is the identity on extended reals). -/
theorem V_main_v15 (c : Dev nD) : (V m c main_v15 : S1024x128.Idx → EReal) = tr (m ((c : Thread nD τ).loc main_arg6)) := by
  have e : (V m c main_v15 : S1024x128.Idx → EReal)
      = (truncf (F := Ideal) .bf16 (transpose S1024x128 [1, 0] (m ((c : Thread nD τ).loc main_arg6) : FVec Ideal S128x1024 .f32) transposes_S128x1024_S1024x128_1_0) bitsLt_bf16_f32 : FVec Ideal S1024x128 .bf16) := by
    dsimp only [Gen.V, Gen.hostOps0]; after_results
  refine e.trans (funext fun i => ?_)
  obtain ⟨k, f, rfl⟩ : ∃ (k : Fin 1024) (f : Fin 128), i = ix2 k f := ⟨i 0, i 1, eq_ix2 i⟩
  exact transpose_ix2_apply _ _ k f

/-- The staged weight `main_v17` is argument 4 transposed (the change of float format is the identity on extended reals). -/
theorem V_main_v17 (c : Dev nD) : (V m c main_v17 : S128x4096.Idx → EReal) = tr (m ((c : Thread nD τ).loc main_arg4)) := by
  have e : (V m c main_v17 : S128x4096.Idx → EReal)
      = (truncf (F := Ideal) .bf16 (transpose S128x4096 [1, 0] (m ((c : Thread nD τ).loc main_arg4) : FVec Ideal S4096x128 .f32) transposes_S4096x128_S128x4096_1_0) bitsLt_bf16_f32 : FVec Ideal S128x4096 .bf16) := by
    dsimp only [Gen.V, Gen.hostOps0]; after_results
  refine e.trans (funext fun i => ?_)
  obtain ⟨k, f, rfl⟩ : ∃ (k : Fin 128) (f : Fin 4096), i = ix2 k f := ⟨i 0, i 1, eq_ix2 i⟩
  exact transpose_ix2_apply _ _ k f

/-- The staged weight `main_v19` is argument 9 transposed (the change of float format is the identity on extended reals). -/
theorem V_main_v19 (c : Dev nD) : (V m c main_v19 : S1024x128.Idx → EReal) = tr (m ((c : Thread nD τ).loc main_arg9)) := by
  have e : (V m c main_v19 : S1024x128.Idx → EReal)
      = (truncf (F := Ideal) .bf16 (transpose S1024x128 [1, 0] (m ((c : Thread nD τ).loc main_arg9) : FVec Ideal S128x1024 .f32) transposes_S128x1024_S1024x128_1_0) bitsLt_bf16_f32 : FVec Ideal S1024x128 .bf16) := by
    dsimp only [Gen.V, Gen.hostOps0]; after_results
  refine e.trans (funext fun i => ?_)
  obtain ⟨k, f, rfl⟩ : ∃ (k : Fin 1024) (f : Fin 128), i = ix2 k f := ⟨i 0, i 1, eq_ix2 i⟩
  exact transpose_ix2_apply _ _ k f

/-- The staged weight `main_v21` is argument 7 transposed (the change of float format is the identity on extended reals). -/
theorem V_main_v21 (c : Dev nD) : (V m c main_v21 : S128x4096.Idx → EReal) = tr (m ((c : Thread nD τ).loc main_arg7)) := by
  have e : (V m c main_v21 : S128x4096.Idx → EReal)
      = (truncf (F := Ideal) .bf16 (transpose S128x4096 [1, 0] (m ((c : Thread nD τ).loc main_arg7) : FVec Ideal S4096x128 .f32) transposes_S4096x128_S128x4096_1_0) bitsLt_bf16_f32 : FVec Ideal S128x4096 .bf16) := by
    dsimp only [Gen.V, Gen.hostOps0]; after_results
  refine e.trans (funext fun i => ?_)
  obtain ⟨k, f, rfl⟩ : ∃ (k : Fin 128) (f : Fin 4096), i = ix2 k f := ⟨i 0, i 1, eq_ix2 i⟩
  exact transpose_ix2_apply _ _ k f

/-- The host's scale term read at (r, f): the topic row times Θᵀ plus θ, times Bᵀ. -/
theorem scale_apply (T : FVec Ideal S4096x3 .f32) (thw : FVec Ideal S3x3 .f32) (thb : FVec Ideal S3 .f32) (wb : FVec Ideal S128x3 .f32)
    (r : Fin 4096) (f : Fin 128) :
    Host.dotGeneral (F := Ideal) dot_S4096x3_S3x128_S4096x128_1_0_0_1_n_n none
        (addf (Host.dotGeneral (F := Ideal) dot_S4096x3_S3x3_S4096x3_1_0_0_1_n_n none T (transpose S3x3 [1, 0] thw transposes_S3x3_S3x3_1_0))
          (broadcastInDim S4096x3 ![0, 1] bcast_S1x3_S4096x3_0_1 (broadcastInDim S1x3 ![1] bcast_S3_S1x3_1 thb)))
        (transpose S3x128 [1, 0] wb transposes_S128x3_S3x128_1_0) (ix2 r f)
      = scaleRow (rowOf T r) thw thb wb f := by
  simp only [Host.dotGeneral]
  refine (plain_dotGeneral_apply (M := 4096) (K := 3) (N := 128) none _ _ _ (ix2 r f)).trans ?_
  unfold scaleRow rowDot
  refine Finset.sum_congr rfl fun k _ => ?_
  refine congrArg₂ (· * ·) ?_ (transpose_ix2_apply wb _ k f)
  show FloatOps.dotGeneral (F := Ideal) (DotDims.plain 4096 3 3) none _ T (transpose S3x3 [1, 0] thw transposes_S3x3_S3x3_1_0) (ix2 r k)
      + broadcastInDim S4096x3 ![0, 1] bcast_S1x3_S4096x3_0_1 (broadcastInDim S1x3 ![1] bcast_S3_S1x3_1 thb) (ix2 r k) = _
  refine congrArg₂ (· + ·) ?_ ?_
  · refine (plain_dotGeneral_apply (M := 4096) (K := 3) (N := 3) none _ _ _ (ix2 r k)).trans ?_
    exact Finset.sum_congr rfl fun k' _ => congrArg (T (ix2 r k') * ·) (transpose_ix2_apply thw _ k' k)
  · refine (broadcastInDim_apply _ _ _ (ix2 r k) (ix2 (0 : Fin 1) k) (fun a => by
        match a with
        | ⟨0, _⟩ => rfl
        | ⟨1, _⟩ => rfl)).trans ?_
    exact broadcastInDim_apply _ _ thb (ix2 (0 : Fin 1) k) (ix1 k) (fun a => by
        match a with
        | ⟨0, _⟩ => rfl)

/-- Row r of the staged scale array `main_v6`. -/
theorem V_main_v6 (c : Dev nD) (r : Fin 4096) :
    rowOf (V m c main_v6 : S4096x128.Idx → EReal) r = scaleRow (rowOf (m ((c : Thread nD τ).loc main_arg3)) r) (m ((c : Thread nD τ).loc main_arg10)) (m ((c : Thread nD τ).loc main_arg11)) (m ((c : Thread nD τ).loc main_arg5)) := by
  have e : (V m c main_v6 : S4096x128.Idx → EReal)
      = Host.dotGeneral (F := Ideal) (φ₁ := .f32) (φ₂ := .f32) dot_S4096x3_S3x128_S4096x128_1_0_0_1_n_n none
        (addf (Host.dotGeneral (F := Ideal) (φ₁ := .f32) (φ₂ := .f32) dot_S4096x3_S3x3_S4096x3_1_0_0_1_n_n none (m ((c : Thread nD τ).loc main_arg3) : FVec Ideal S4096x3 .f32) (transpose S3x3 [1, 0] (m ((c : Thread nD τ).loc main_arg10) : FVec Ideal S3x3 .f32) transposes_S3x3_S3x3_1_0))
          (broadcastInDim S4096x3 ![0, 1] bcast_S1x3_S4096x3_0_1 (broadcastInDim S1x3 ![1] bcast_S3_S1x3_1 (m ((c : Thread nD τ).loc main_arg11) : FVec Ideal S3 .f32))))
        (transpose S3x128 [1, 0] (m ((c : Thread nD τ).loc main_arg5) : FVec Ideal S128x3 .f32) transposes_S128x3_S3x128_1_0) := by
    dsimp only [Gen.V, Gen.hostOps0]; after_results
  funext f
  show (V m c main_v6 : S4096x128.Idx → EReal) (ix2 r f) = _
  rw [e]
  exact scale_apply (m ((c : Thread nD τ).loc main_arg3) : FVec Ideal S4096x3 .f32) (m ((c : Thread nD τ).loc main_arg10) : FVec Ideal S3x3 .f32) (m ((c : Thread nD τ).loc main_arg11) : FVec Ideal S3 .f32) (m ((c : Thread nD τ).loc main_arg5) : FVec Ideal S128x3 .f32) r f

set_option maxHeartbeats 1000000 in
/-- Row r of the staged scale array `main_v13`. -/
theorem V_main_v13 (c : Dev nD) (r : Fin 4096) :
    rowOf (V m c main_v13 : S4096x128.Idx → EReal) r = scaleRow (rowOf (m ((c : Thread nD τ).loc main_arg3)) r) (m ((c : Thread nD τ).loc main_arg12)) (m ((c : Thread nD τ).loc main_arg13)) (m ((c : Thread nD τ).loc main_arg8)) := by
  have e : (V m c main_v13 : S4096x128.Idx → EReal)
      = Host.dotGeneral (F := Ideal) (φ₁ := .f32) (φ₂ := .f32) dot_S4096x3_S3x128_S4096x128_1_0_0_1_n_n none
        (addf (Host.dotGeneral (F := Ideal) (φ₁ := .f32) (φ₂ := .f32) dot_S4096x3_S3x3_S4096x3_1_0_0_1_n_n none (m ((c : Thread nD τ).loc main_arg3) : FVec Ideal S4096x3 .f32) (transpose S3x3 [1, 0] (m ((c : Thread nD τ).loc main_arg12) : FVec Ideal S3x3 .f32) transposes_S3x3_S3x3_1_0))
          (broadcastInDim S4096x3 ![0, 1] bcast_S1x3_S4096x3_0_1 (broadcastInDim S1x3 ![1] bcast_S3_S1x3_1 (m ((c : Thread nD τ).loc main_arg13) : FVec Ideal S3 .f32))))
        (transpose S3x128 [1, 0] (m ((c : Thread nD τ).loc main_arg8) : FVec Ideal S128x3 .f32) transposes_S128x3_S3x128_1_0) := by
    dsimp only [Gen.V, Gen.hostOps0]; after_results_simp <;> rfl
  funext f
  show (V m c main_v13 : S4096x128.Idx → EReal) (ix2 r f) = _
  rw [e]
  exact scale_apply (m ((c : Thread nD τ).loc main_arg3) : FVec Ideal S4096x3 .f32) (m ((c : Thread nD τ).loc main_arg12) : FVec Ideal S3x3 .f32) (m ((c : Thread nD τ).loc main_arg13) : FVec Ideal S3 .f32) (m ((c : Thread nD τ).loc main_arg8) : FVec Ideal S128x3 .f32) r f

/-! ## What a point writes back, row by row -/

/-- The row function depends on its fifteen arguments only through their values. -/
theorem hyCore_congr {x x' h h' cc cc' : Fin 1024 → EReal} {si si' sh sh' : Fin 128 → EReal} {Ci Ci' : Arr2 1024 128} {Ai Ai' : Arr2 128 4096}
    {Ch Ch' : Arr2 1024 128} {Ah Ah' : Arr2 128 4096} {wi wi' bi bi' wh wh' bh bh' : Arr1 4096} {wc wc' bc bc' : Arr1 1024}
    (e0 : x = x') (e1 : h = h') (e2 : cc = cc') (e3 : si = si') (e4 : sh = sh') (e5 : Ci = Ci') (e6 : Ai = Ai') (e7 : Ch = Ch') (e8 : Ah = Ah')
    (e9 : wi = wi') (e10 : bi = bi') (e11 : wh = wh') (e12 : bh = bh') (e13 : wc = wc') (e14 : bc = bc') (q : Fin 1024) :
    hyCore x h cc si sh Ci Ai Ch Ah wi bi wh bh wc bc q = hyCore x' h' cc' si' sh' Ci' Ai' Ch' Ah' wi' bi' wh' bh' wc' bc' q := by
  subst e0 e1 e2 e3 e4 e5 e6 e7 e8 e9 e10 e11 e12 e13 e14; rfl

theorem cyCore_congr {x x' h h' cc cc' : Fin 1024 → EReal} {si si' sh sh' : Fin 128 → EReal} {Ci Ci' : Arr2 1024 128} {Ai Ai' : Arr2 128 4096}
    {Ch Ch' : Arr2 1024 128} {Ah Ah' : Arr2 128 4096} {wi wi' bi bi' wh wh' bh bh' : Arr1 4096} {wc wc' bc bc' : Arr1 1024}
    (e0 : x = x') (e1 : h = h') (e2 : cc = cc') (e3 : si = si') (e4 : sh = sh') (e5 : Ci = Ci') (e6 : Ai = Ai') (e7 : Ch = Ch') (e8 : Ah = Ah')
    (e9 : wi = wi') (e10 : bi = bi') (e11 : wh = wh') (e12 : bh = bh') (e13 : wc = wc') (e14 : bc = bc') (q : Fin 1024) :
    cyCore x h cc si sh Ci Ai Ch Ah wi bi wh bh wc bc q = cyCore x' h' cc' si' sh' Ci' Ai' Ch' Ah' wi' bi' wh' bh' wc' bc' q := by
  subst e0 e1 e2 e3 e4 e5 e6 e7 e8 e9 e10 e11 e12 e13 e14; rfl

/-- Row p of an activation block at point t is row 128·t + p of the argument array. -/
theorem act_row0 (c : Dev nD) (t : Fin cfg0.N) (p : Fin 128) :
    rowOf (iblk m c 0 t : S128x1024.Idx → EReal) p = rowOf (m ((c : Thread nD τ).loc main_arg0)) (rowAt t p) :=
  funext fun k => (blk0 m c t p k).trans (congrFun (V_main_arg0 m c) _)
theorem act_row1 (c : Dev nD) (t : Fin cfg0.N) (p : Fin 128) :
    rowOf (iblk m c 1 t : S128x1024.Idx → EReal) p = rowOf (m ((c : Thread nD τ).loc main_arg1)) (rowAt t p) :=
  funext fun k => (blk1 m c t p k).trans (congrFun (V_main_arg1 m c) _)
theorem act_row2 (c : Dev nD) (t : Fin cfg0.N) (p : Fin 128) :
    rowOf (iblk m c 2 t : S128x1024.Idx → EReal) p = rowOf (m ((c : Thread nD τ).loc main_arg2)) (rowAt t p) :=
  funext fun k => (blk2 m c t p k).trans (congrFun (V_main_arg2 m c) _)
/-- Row p of a scale block at point t is the scale of row 128·t + p of the topic array. -/
theorem scale_row3 (c : Dev nD) (t : Fin cfg0.N) (p : Fin 128) :
    rowOf (iblk m c 3 t : S128x128.Idx → EReal) p = scaleRow (rowOf (m ((c : Thread nD τ).loc main_arg3)) (rowAt t p)) (m ((c : Thread nD τ).loc main_arg10)) (m ((c : Thread nD τ).loc main_arg11)) (m ((c : Thread nD τ).loc main_arg5)) :=
  (funext fun k => blk3 m c t p k : rowOf (iblk m c 3 t : S128x128.Idx → EReal) p = rowOf (V m c main_v6 : S4096x128.Idx → EReal) (rowAt t p)).trans (V_main_v6 m c (rowAt t p))
theorem scale_row4 (c : Dev nD) (t : Fin cfg0.N) (p : Fin 128) :
    rowOf (iblk m c 4 t : S128x128.Idx → EReal) p = scaleRow (rowOf (m ((c : Thread nD τ).loc main_arg3)) (rowAt t p)) (m ((c : Thread nD τ).loc main_arg12)) (m ((c : Thread nD τ).loc main_arg13)) (m ((c : Thread nD τ).loc main_arg8)) :=
  (funext fun k => blk4 m c t p k : rowOf (iblk m c 4 t : S128x128.Idx → EReal) p = rowOf (V m c main_v13 : S4096x128.Idx → EReal) (rowAt t p)).trans (V_main_v13 m c (rowAt t p))

/-- Entry (p, q) of what point t stores for the hidden state is entry (128·t + p, q) of the row function of the arguments. -/
theorem hy_point (c : Dev nD) (t : Fin cfg0.N) (p : Fin 128) (q : Fin 1024) :
    hyBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
      = hyAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (ix2 (rowAt t p) q) := by
  refine (hyBlock_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  refine Eq.trans ?_ (hyAll_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (rowAt t p) q).symm
  exact hyCore_congr (act_row0 m c t p) (act_row1 m c t p) (act_row2 m c t p) (scale_row3 m c t p) (scale_row4 m c t p)
      (((blk5 m c t).trans (V_main_v15 m c))) ((blk6 m c t).trans (V_main_v17 m c)) ((blk7 m c t).trans (V_main_v19 m c)) ((blk8 m c t).trans (V_main_v21 m c))
      ((blk9 m c t).trans (V_main_arg14 m c)) ((blk10 m c t).trans (V_main_arg15 m c)) ((blk11 m c t).trans (V_main_arg16 m c)) ((blk12 m c t).trans (V_main_arg17 m c))
      ((blk13 m c t).trans (V_main_arg18 m c)) ((blk14 m c t).trans (V_main_arg19 m c)) q

/-- What point t writes back to the hy array is block t of the row function of the arguments. -/
theorem flushed15_eq (c : Dev nD) (t : Fin cfg0.N) :
    (dats m 0 c).flushed 15 t = ((cfg0.win 15).blk t).view.read (Elt Ideal) (hyAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  rw [flushed15]
  funext j
  obtain ⟨p, q, rfl⟩ : ∃ (p : Fin 128) (q : Fin 1024), j = ix2 p q := ⟨j 0, j 1, eq_ix2 j⟩
  have h : ((cfg0.win 15).blk t).view.emb (ix2 p q) = ix2 (rowAt t p) q := by
    funext a; apply Fin.ext
    obtain ⟨-, -, -, -, -, -, -, -, -, -, -, -, -, -, -, ⟨e0, e1⟩, -⟩ := idx_facts t
    match a with
    | ⟨0, _⟩ => show win0_15.index t (0 : Fin 2) * 128 + 1 * p.val = t.val * 128 + p.val; rw [e0, Nat.one_mul]
    | ⟨1, _⟩ => show win0_15.index t (1 : Fin 2) * 1024 + 1 * q.val = q.val; rw [e1]; omega
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q) = hyAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (((cfg0.win 15).blk t).view.emb (ix2 p q))
  rw [h]
  exact (congrFun (out15_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix2 p q)).trans (hy_point m c t p q)

/-- An index of the hy array is in point t's block iff each coordinate is in the block's range on its axis. -/
theorem mem_blk15 (t : Fin cfg0.N) (i : S4096x1024.Idx) :
    i ∈ ((cfg0.win 15).blk t).view.set ↔ ∀ a : Fin 2, win0_15.index t a * S128x1024.size a ≤ (i a).val ∧ (i a).val < win0_15.index t a * S128x1024.size a + S128x1024.size a := by
  show i ∈ ((View.whole main_v22_0).slice (win0_15.rect t)).set ↔ _
  rw [View.set_slice_whole, Rect.mem_set_unit]
  exact Iff.rfl

/-- The 32 blocks tile the hy array: row r is in the block of point r / 128. -/
theorem cover15 (i : S4096x1024.Idx) : ∃ t : Fin cfg0.N, (cfg0.win 15).flush t = true ∧ i ∈ ((cfg0.win 15).blk t).view.set := by
  have hi0 : (i 0).val < 4096 := (i 0).isLt
  have hi1 : (i 1).val < 1024 := (i 1).isLt
  obtain ⟨t, ht⟩ := idx_onto15 ⟨(i 0).val / 128, by omega⟩
  have q0 : win0_15.index t (0 : Fin 2) = (i 0).val / 128 := congrFun ht 0
  have q1 : win0_15.index t (1 : Fin 2) = 0 := congrFun ht 1
  refine ⟨t, flush0_15 t, ?_⟩
  rw [mem_blk15]
  intro a
  match a with
  | ⟨0, _⟩ => show win0_15.index t (0 : Fin 2) * 128 ≤ (i 0).val ∧ (i 0).val < win0_15.index t (0 : Fin 2) * 128 + 128; omega
  | ⟨1, _⟩ => show win0_15.index t (1 : Fin 2) * 1024 ≤ (i 1).val ∧ (i 1).val < win0_15.index t (1 : Fin 2) * 1024 + 1024; omega

/-- The hy array after the run is the row function of the arguments. -/
theorem final15 (c : Dev nD) : (dats m 0 c).arrAt 15 cfg0.N = hyAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (dats m 0 c).arrAt_eq_of_cover 15 (hyAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (fun t _ => flushed15_eq m c t) cover15

/-- Entry (p, q) of what point t stores for the cell state is entry (128·t + p, q) of the row function of the arguments. -/
theorem cy_point (c : Dev nD) (t : Fin cfg0.N) (p : Fin 128) (q : Fin 1024) :
    cyBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
      = cyAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (ix2 (rowAt t p) q) := by
  refine (cyBlock_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  refine Eq.trans ?_ (cyAll_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (rowAt t p) q).symm
  exact cyCore_congr (act_row0 m c t p) (act_row1 m c t p) (act_row2 m c t p) (scale_row3 m c t p) (scale_row4 m c t p)
      (((blk5 m c t).trans (V_main_v15 m c))) ((blk6 m c t).trans (V_main_v17 m c)) ((blk7 m c t).trans (V_main_v19 m c)) ((blk8 m c t).trans (V_main_v21 m c))
      ((blk9 m c t).trans (V_main_arg14 m c)) ((blk10 m c t).trans (V_main_arg15 m c)) ((blk11 m c t).trans (V_main_arg16 m c)) ((blk12 m c t).trans (V_main_arg17 m c))
      ((blk13 m c t).trans (V_main_arg18 m c)) ((blk14 m c t).trans (V_main_arg19 m c)) q

/-- What point t writes back to the cy array is block t of the row function of the arguments. -/
theorem flushed16_eq (c : Dev nD) (t : Fin cfg0.N) :
    (dats m 0 c).flushed 16 t = ((cfg0.win 16).blk t).view.read (Elt Ideal) (cyAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  rw [flushed16]
  funext j
  obtain ⟨p, q, rfl⟩ : ∃ (p : Fin 128) (q : Fin 1024), j = ix2 p q := ⟨j 0, j 1, eq_ix2 j⟩
  have h : ((cfg0.win 16).blk t).view.emb (ix2 p q) = ix2 (rowAt t p) q := by
    funext a; apply Fin.ext
    obtain ⟨-, -, -, -, -, -, -, -, -, -, -, -, -, -, -, -, ⟨e0, e1⟩⟩ := idx_facts t
    match a with
    | ⟨0, _⟩ => show win0_16.index t (0 : Fin 2) * 128 + 1 * p.val = t.val * 128 + p.val; rw [e0, Nat.one_mul]
    | ⟨1, _⟩ => show win0_16.index t (1 : Fin 2) * 1024 + 1 * q.val = q.val; rw [e1]; omega
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q) = cyAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (((cfg0.win 16).blk t).view.emb (ix2 p q))
  rw [h]
  exact (congrFun (out16_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix2 p q)).trans (cy_point m c t p q)

/-- An index of the cy array is in point t's block iff each coordinate is in the block's range on its axis. -/
theorem mem_blk16 (t : Fin cfg0.N) (i : S4096x1024.Idx) :
    i ∈ ((cfg0.win 16).blk t).view.set ↔ ∀ a : Fin 2, win0_16.index t a * S128x1024.size a ≤ (i a).val ∧ (i a).val < win0_16.index t a * S128x1024.size a + S128x1024.size a := by
  show i ∈ ((View.whole main_v22_1).slice (win0_16.rect t)).set ↔ _
  rw [View.set_slice_whole, Rect.mem_set_unit]
  exact Iff.rfl

/-- The 32 blocks tile the cy array: row r is in the block of point r / 128. -/
theorem cover16 (i : S4096x1024.Idx) : ∃ t : Fin cfg0.N, (cfg0.win 16).flush t = true ∧ i ∈ ((cfg0.win 16).blk t).view.set := by
  have hi0 : (i 0).val < 4096 := (i 0).isLt
  have hi1 : (i 1).val < 1024 := (i 1).isLt
  obtain ⟨t, ht⟩ := idx_onto16 ⟨(i 0).val / 128, by omega⟩
  have q0 : win0_16.index t (0 : Fin 2) = (i 0).val / 128 := congrFun ht 0
  have q1 : win0_16.index t (1 : Fin 2) = 0 := congrFun ht 1
  refine ⟨t, flush0_16 t, ?_⟩
  rw [mem_blk16]
  intro a
  match a with
  | ⟨0, _⟩ => show win0_16.index t (0 : Fin 2) * 128 ≤ (i 0).val ∧ (i 0).val < win0_16.index t (0 : Fin 2) * 128 + 128; omega
  | ⟨1, _⟩ => show win0_16.index t (1 : Fin 2) * 1024 ≤ (i 1).val ∧ (i 1).val < win0_16.index t (1 : Fin 2) * 1024 + 1024; omega

/-- The cy array after the run is the row function of the arguments. -/
theorem final16 (c : Dev nD) : (dats m 0 c).arrAt 16 cfg0.N = cyAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (dats m 0 c).arrAt_eq_of_cover 16 (cyAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (fun t _ => flushed16_eq m c t) cover16

/-! ## The run, read -/

/-- Every weakly fair execution of the kernel's program ends with its two results at the row functions of the
    arguments and the arguments unchanged. -/
theorem run : θ_run defs (onTc (τ := τ) (main (F := Ideal))) ⟨m, fun _ => 0, ρ⟩ fun r => ∀ c : Dev nD,
      r.2.mem ((c : Thread nD τ).loc main_v22_0) = hyAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
      ∧ r.2.mem ((c : Thread nD τ).loc main_v22_1) = cyAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨(h c).1.trans (final15 m c), (h c).2.1.trans (final16 m c), (h c).2.2⟩)
    (run_blocks m ρ)

end Cert.KernelIdeal.Blocks

end
-- ==== Proof.RefRowsA.lean ====
/-
  The reference's host operations read at an index, written once over variables: a transposed matrix, a plain matrix
  product, the broadcasts of a scalar, of a vector along rows and of a column along columns, a row sum, and from them the
  pieces of a layer normalisation of the rows of a matrix (mean column, centred rows, reciprocal standard deviation,
  affine part), the logistic function as the reference expands it, a quarter of a row cut out by a slice, and the
  factorised gate pre-activation.  Everything is stated at (ix2 p c) over literal-typed coordinates.
-/
import proofs.«179324_j88115549045316_1_alg».proof.Proof.CellSpec
import proofs.«179324_j88115549045316_1_alg».proof.Proof.LibPlainDot
import Idealize.ShloMosaic.Lib.IdealHost
import Idealize.ShloMosaic.Lib.ValueLayout
import Idealize.ShloMosaic.Lib.Pipeline.Value
import Idealize.ShloMosaic.PureOps.Ideal.Laws

noncomputable section

namespace Cert.ReferenceIdeal.Rows

open Idealize.ShloMosaic Idealize.ShloMosaic.ValueIdx Cert.Cell

variable {a b : ℕ}

/-! ## Layout operations -/

/-- A transposed matrix is the transposed array of the specification. -/
theorem transpose_eq_tr (x : FVec Ideal ⟨2, ![a, b]⟩ .f32) (h : (⟨2, ![a, b]⟩ : Shape).Transposes [1, 0] ⟨2, ![b, a]⟩) :
    transpose ⟨2, ![b, a]⟩ [1, 0] x h = tr x := by
  funext i
  obtain ⟨p, q, rfl⟩ : ∃ (p : Fin b) (q : Fin a), i = ix2 p q := ⟨i 0, i 1, eq_ix2 i⟩
  exact transpose_ix2_apply x h p q

/-- A scalar constant broadcast to any shape reads the constant's value everywhere. -/
theorem bcast_const_apply {T : Shape} (h : (⟨0, ![]⟩ : Shape).BroadcastsInDim T (![] : Fin 0 → Fin T.rank)) (w : BitVec 32)
    (j : T.Idx) :
    broadcastInDim T (![] : Fin 0 → Fin T.rank) h (constant (F := Ideal) ⟨0, ![]⟩ .f32 w) j = Ideal.ofBits .f32 w :=
  broadcastInDim_scalar_apply h _ j

/-- A vector laid out as a column reads, at (p, u), the vector at p. -/
theorem bcast_col_apply {α : Type} (h : (⟨1, ![a]⟩ : Shape).BroadcastsInDim ⟨2, ![a, 1]⟩ (![0] : Fin 1 → Fin 2))
    (v : (⟨1, ![a]⟩ : Shape).Idx → α) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector laid out as one row and repeated over all rows reads, at (p, c), the vector at c. -/
theorem bcast_row_apply {α : Type} (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (v : (⟨1, ![b]⟩ : Shape).Idx → α) (p : Fin a) (c : Fin b) :
    broadcastInDim ⟨2, ![a, b]⟩ (![0, 1] : Fin 2 → Fin 2) h2 (broadcastInDim ⟨2, ![1, b]⟩ (![1] : Fin 1 → Fin 2) h1 v) (ix2 p c)
      = v (ix1 c) := by
  refine (broadcastInDim_apply _ h2 _ (ix2 p c) (ix2 (0 : Fin 1) c) fun ax => ?_).trans
    (broadcastInDim_apply _ h1 v (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A column repeated over all columns reads, at (p, c), the column at p. -/
theorem bcast_colfill_apply {α : Type} (h : (⟨2, ![a, 1]⟩ : Shape).BroadcastsInDim ⟨2, ![a, b]⟩ (![0, 1] : Fin 2 → Fin 2))
    (v : (⟨2, ![a, 1]⟩ : Shape).Idx → α) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A matrix product and a row sum -/

/-- A rows-by-columns product read at (p, c): the sum over the contraction coordinate. -/
theorem dot_apply {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (p : Fin M) (c : Fin N) :
    Host.dotGeneral (F := Ideal) d none l r (ix2 p c) = ∑ k : Fin K, l (ix2 p k) * r (ix2 k c) := by
  subst hd
  exact plain_dotGeneral_apply none .single l r (ix2 p c)

/-- The sum of a matrix along its rows, from the initial value zero, read at p: the sum of row p. -/
theorem rowSum_apply (X : FVec Ideal ⟨2, ![a, b]⟩ .f32) (h' : (⟨2, ![a, b]⟩ : Shape).ReducesTo [1] ⟨1, ![a]⟩)
    (hu : 0 < (⟨0, ![]⟩ : Shape).numel) (p : Fin a) :
    Host.reduceAdd (F := Ideal) X (constant (F := Ideal) ⟨0, ![]⟩ .f32 0x00000000#32) h' hu (ix1 p) = ∑ k : Fin b, X (ix2 p k) := by
  have h : (⟨2, ![a, b]⟩ : Shape).Reduces [1] ⟨1, ![a]⟩ := ⟨h'.1, Nat.one_pos, h'.2⟩
  refine (hostReduceAdd_apply X _ h' hu (ix1 p)).trans ?_
  refine (Ideal.hostReduceAdd_single h' h X _ (ix1 p)).trans ?_
  show Ideal.ofBits .f32 0x00000000#32 + _ = _
  rw [Ideal.ofBits_zero_f32, zero_add]
  refine Finset.sum_congr rfl fun k _ => congrArg X ?_
  funext ax
  apply Fin.ext
  match ax with
  | ⟨0, _⟩ => rfl
  | ⟨1, _⟩ => rfl

end Cert.ReferenceIdeal.Rows

end
-- ==== Proof.RefRowsB.lean ====
/-
  A layer normalisation of the rows of a matrix as the reference spells it (mean column, centred matrix, reciprocal
  standard deviation column, affine part), the logistic function as the reference expands it, a quarter of a row cut out
  by a slice, the new cell state, and the factorised gate pre-activation with its topic-conditioned scale: each read at
  (ix2 p c) over variables, against the row functions of the specification.
-/
import proofs.«179324_j88115549045316_1_alg».proof.Proof.RefRowsA

noncomputable section

namespace Cert.ReferenceIdeal.Rows

open Idealize.ShloMosaic Idealize.ShloMosaic.ValueIdx Cert.Cell

variable {a b : ℕ}

/-! ## Layer normalisation of the rows of a matrix -/

/-- The mean column: the row sums laid out as a column, divided by the row length as a float. -/
theorem meanCol_apply (X : FVec Ideal ⟨2, ![a, b]⟩ .f32) (nlit : BitVec 32) (row : Fin a → Fin b → EReal)
    (hX : ∀ p c, X (ix2 p c) = row p c)
    (h' : (⟨2, ![a, b]⟩ : Shape).ReducesTo [1] ⟨1, ![a]⟩) (hu : 0 < (⟨0, ![]⟩ : Shape).numel)
    (h1 : (⟨1, ![a]⟩ : Shape).BroadcastsInDim ⟨2, ![a, 1]⟩ (![0] : Fin 1 → Fin 2))
    (h2 : (⟨0, ![]⟩ : Shape).BroadcastsInDim ⟨2, ![a, 1]⟩ (![] : Fin 0 → Fin 2)) (p : Fin a) (u : Fin 1) :
    Host.divf (F := Ideal)
        (broadcastInDim ⟨2, ![a, 1]⟩ (![0] : Fin 1 → Fin 2) h1
          (Host.reduceAdd (F := Ideal) X (constant (F := Ideal) ⟨0, ![]⟩ .f32 0x00000000#32) h' hu))
        (broadcastInDim ⟨2, ![a, 1]⟩ (![] : Fin 0 → Fin 2) h2 (constant (F := Ideal) ⟨0, ![]⟩ .f32 nlit)) (ix2 p u)
      = rowMean nlit (row p) := by
  refine (hostDivf_apply _ _ _).trans ?_
  show _ = Ideal.div (∑ k : Fin b, row p k) (Ideal.ofBits .f32 nlit)
  refine congrArg₂ Ideal.div ?_ (bcast_const_apply h2 nlit _)
  exact (bcast_col_apply h1 _ p u).trans ((rowSum_apply X h' hu p).trans (Finset.sum_congr rfl fun k _ => hX p k))

/-- The centred matrix: the mean column taken off every column. -/
theorem ctr_apply (X : FVec Ideal ⟨2, ![a, b]⟩ .f32) (M : FVec Ideal ⟨2, ![a, 1]⟩ .f32) (nlit : BitVec 32)
    (row : Fin a → Fin b → EReal) (hX : ∀ p c, X (ix2 p c) = row p c)
    (hM : ∀ p, M (ix2 p (0 : Fin 1)) = rowMean nlit (row p))
    (h3 : (⟨2, ![a, 1]⟩ : Shape).BroadcastsInDim ⟨2, ![a, b]⟩ (![0, 1] : Fin 2 → Fin 2)) (p : Fin a) (c : Fin b) :
    subf X (broadcastInDim ⟨2, ![a, b]⟩ (![0, 1] : Fin 2 → Fin 2) h3 M) (ix2 p c) = rowCtr nlit (row p) c := by
  refine (subf_apply _ _ _).trans ?_
  show _ = row p c - rowMean nlit (row p)
  exact congrArg₂ (· - ·) (hX p c) ((bcast_colfill_apply h3 M p c).trans (hM p))

/-- The reciprocal standard deviation column of an already centred matrix. -/
theorem invCol_apply (C : FVec Ideal ⟨2, ![a, b]⟩ .f32) (nlit : BitVec 32) (ctr : Fin a → Fin b → EReal)
    (hC : ∀ p c, C (ix2 p c) = ctr p c)
    (h' : (⟨2, ![a, b]⟩ : Shape).ReducesTo [1] ⟨1, ![a]⟩) (hu : 0 < (⟨0, ![]⟩ : Shape).numel)
    (h1 : (⟨1, ![a]⟩ : Shape).BroadcastsInDim ⟨2, ![a, 1]⟩ (![0] : Fin 1 → Fin 2))
    (h2 : (⟨0, ![]⟩ : Shape).BroadcastsInDim ⟨2, ![a, 1]⟩ (![] : Fin 0 → Fin 2)) (p : Fin a) (u : Fin 1) :
    Host.rsqrt (F := Ideal) (addf
        (Host.divf (F := Ideal)
          (broadcastInDim ⟨2, ![a, 1]⟩ (![0] : Fin 1 → Fin 2) h1
            (Host.reduceAdd (F := Ideal) (mulf C C) (constant (F := Ideal) ⟨0, ![]⟩ .f32 0x00000000#32) h' hu))
          (broadcastInDim ⟨2, ![a, 1]⟩ (![] : Fin 0 → Fin 2) h2 (constant (F := Ideal) ⟨0, ![]⟩ .f32 nlit)))
        (broadcastInDim ⟨2, ![a, 1]⟩ (![] : Fin 0 → Fin 2) h2 (constant (F := Ideal) ⟨0, ![]⟩ .f32 0x3727C5AC#32))) (ix2 p u)
      = rowInv nlit (ctr p) := by
  show Ideal.rsqrt (_ + _) = Ideal.rsqrt (rowMean nlit (fun k => ctr p k * ctr p k) + Ideal.ofBits .f32 0x3727C5AC#32)
  refine congrArg Ideal.rsqrt (congrArg₂ (· + ·) ?_ (bcast_const_apply h2 _ _))
  exact meanCol_apply (mulf C C) nlit (fun p k => ctr p k * ctr p k)
    (fun p c => (mulf_apply C C _).trans (congrArg₂ (· * ·) (hC p c) (hC p c))) h' hu h1 h2 p u

/-- A layer normalisation of the rows of X, given X's mean column M and centred matrix C. -/
theorem ln_apply (X C : FVec Ideal ⟨2, ![a, b]⟩ .f32) (M : FVec Ideal ⟨2, ![a, 1]⟩ .f32) (w bb : FVec Ideal ⟨1, ![b]⟩ .f32)
    (nlit : BitVec 32) (row : Fin a → Fin b → EReal) (hX : ∀ p c, X (ix2 p c) = row p c)
    (hM : ∀ p, M (ix2 p (0 : Fin 1)) = rowMean nlit (row p)) (hC : ∀ p c, C (ix2 p c) = rowCtr nlit (row p) c)
    (h' : (⟨2, ![a, b]⟩ : Shape).ReducesTo [1] ⟨1, ![a]⟩) (hu : 0 < (⟨0, ![]⟩ : Shape).numel)
    (h1 : (⟨1, ![a]⟩ : Shape).BroadcastsInDim ⟨2, ![a, 1]⟩ (![0] : Fin 1 → Fin 2))
    (h2 : (⟨0, ![]⟩ : Shape).BroadcastsInDim ⟨2, ![a, 1]⟩ (![] : Fin 0 → Fin 2))
    (h3 : (⟨2, ![a, 1]⟩ : Shape).BroadcastsInDim ⟨2, ![a, b]⟩ (![0, 1] : Fin 2 → Fin 2))
    (h4 : (⟨1, ![b]⟩ : Shape).BroadcastsInDim ⟨2, ![1, b]⟩ (![1] : Fin 1 → Fin 2))
    (h5 : (⟨2, ![1, b]⟩ : Shape).BroadcastsInDim ⟨2, ![a, b]⟩ (![0, 1] : Fin 2 → Fin 2)) (p : Fin a) (c : Fin b) :
    addf (mulf (mulf (subf X (broadcastInDim ⟨2, ![a, b]⟩ (![0, 1] : Fin 2 → Fin 2) h3 M))
          (broadcastInDim ⟨2, ![a, b]⟩ (![0, 1] : Fin 2 → Fin 2) h3
            (Host.rsqrt (F := Ideal) (addf
              (Host.divf (F := Ideal)
                (broadcastInDim ⟨2, ![a, 1]⟩ (![0] : Fin 1 → Fin 2) h1
                  (Host.reduceAdd (F := Ideal) (mulf C C) (constant (F := Ideal) ⟨0, ![]⟩ .f32 0x00000000#32) h' hu))
                (broadcastInDim ⟨2, ![a, 1]⟩ (![] : Fin 0 → Fin 2) h2 (constant (F := Ideal) ⟨0, ![]⟩ .f32 nlit)))
              (broadcastInDim ⟨2, ![a, 1]⟩ (![] : Fin 0 → Fin 2) h2 (constant (F := Ideal) ⟨0, ![]⟩ .f32 0x3727C5AC#32))))))
        (broadcastInDim ⟨2, ![a, b]⟩ (![0, 1] : Fin 2 → Fin 2) h5 (broadcastInDim ⟨2, ![1, b]⟩ (![1] : Fin 1 → Fin 2) h4 w)))
      (broadcastInDim ⟨2, ![a, b]⟩ (![0, 1] : Fin 2 → Fin 2) h5 (broadcastInDim ⟨2, ![1, b]⟩ (![1] : Fin 1 → Fin 2) h4 bb)) (ix2 p c)
      = rowNorm nlit (row p) w bb c := by
  show _ * _ * _ + _ = rowCtr nlit (row p) c * rowInv nlit (rowCtr nlit (row p)) * w (ix1 c) + bb (ix1 c)
  refine congrArg₂ (· + ·) (congrArg₂ (· * ·) (congrArg₂ (· * ·) ?_ ?_) (bcast_row_apply h4 h5 w p c)) (bcast_row_apply h4 h5 bb p c)
  · exact ctr_apply X M nlit row hX hM h3 p c
  · exact (bcast_colfill_apply h3 _ p c).trans (invCol_apply C nlit (fun p => rowCtr nlit (row p)) hC h' hu h1 h2 p 0)

/-! ## The logistic function, a quarter of a row, and the new cell state -/

/-- The logistic function as the reference expands it: 1 / (1 + exp (-y)). -/
theorem sigm_apply {s : Shape} (h : (⟨0, ![]⟩ : Shape).BroadcastsInDim s (![] : Fin 0 → Fin s.rank)) (Y : FVec Ideal s .f32)
    (i : s.Idx) :
    Host.divf (F := Ideal) (broadcastInDim s (![] : Fin 0 → Fin s.rank) h (constant (F := Ideal) ⟨0, ![]⟩ .f32 0x3F800000#32))
        (addf (broadcastInDim s (![] : Fin 0 → Fin s.rank) h (constant (F := Ideal) ⟨0, ![]⟩ .f32 0x3F800000#32))
          (Host.exp (F := Ideal) (Host.negf (F := Ideal) Y))) i
      = Ideal.logistic (Y i) := by
  show Ideal.div (broadcastInDim s (![] : Fin 0 → Fin s.rank) h (constant (F := Ideal) ⟨0, ![]⟩ .f32 0x3F800000#32) i)
      (broadcastInDim s (![] : Fin 0 → Fin s.rank) h (constant (F := Ideal) ⟨0, ![]⟩ .f32 0x3F800000#32) i + Ideal.exp (-(Y i))) = _
  rw [bcast_const_apply h, Ideal.ofBits_one_f32]
  rfl

/-- A quarter of the columns cut out by a slice reads the row at the quarter's offset plus the column. -/
theorem quarter_slice_apply {n : ℕ} (o : ℕ) (ho : o + 1024 ≤ 4096) (G : FVec Ideal ⟨2, ![n, 4096]⟩ .f32)
    (h : (⟨2, ![n, 4096]⟩ : Shape).Slices ![0, o] ⟨2, ![n, 1024]⟩) (r : Fin n) (q : Fin 1024) :
    extractStridedSlice ⟨2, ![n, 1024]⟩ ![0, o] G h (ix2 r q) = G (ix2 r (quarter o ho q)) :=
  slice2_axis1_apply o G h r q (quarter o ho q) rfl

/-- The logistic function of a quarter of the gates. -/
theorem sigm_quarter_apply {n : ℕ} (o : ℕ) (ho : o + 1024 ≤ 4096) (G : FVec Ideal ⟨2, ![n, 4096]⟩ .f32)
    (g : Fin n → Fin 4096 → EReal) (hG : ∀ r j, G (ix2 r j) = g r j)
    (hb : (⟨0, ![]⟩ : Shape).BroadcastsInDim ⟨2, ![n, 1024]⟩ (![] : Fin 0 → Fin 2))
    (h : (⟨2, ![n, 4096]⟩ : Shape).Slices ![0, o] ⟨2, ![n, 1024]⟩) (r : Fin n) (q : Fin 1024) :
    Host.divf (F := Ideal) (broadcastInDim ⟨2, ![n, 1024]⟩ (![] : Fin 0 → Fin 2) hb (constant (F := Ideal) ⟨0, ![]⟩ .f32 0x3F800000#32))
        (addf (broadcastInDim ⟨2, ![n, 1024]⟩ (![] : Fin 0 → Fin 2) hb (constant (F := Ideal) ⟨0, ![]⟩ .f32 0x3F800000#32))
          (Host.exp (F := Ideal) (Host.negf (F := Ideal) (extractStridedSlice ⟨2, ![n, 1024]⟩ ![0, o] G h)))) (ix2 r q)
      = Ideal.logistic (g r (quarter o ho q)) :=
  (sigm_apply hb _ (ix2 r q)).trans (congrArg Ideal.logistic ((quarter_slice_apply o ho G h r q).trans (hG r _)))

/-- The new cell state before its normalisation, of the gates G and the old cell state c0. -/
theorem cNew_apply {n : ℕ} (G : FVec Ideal ⟨2, ![n, 4096]⟩ .f32) (c0 : FVec Ideal ⟨2, ![n, 1024]⟩ .f32)
    (g : Fin n → Fin 4096 → EReal) (hG : ∀ r j, G (ix2 r j) = g r j)
    (hb : (⟨0, ![]⟩ : Shape).BroadcastsInDim ⟨2, ![n, 1024]⟩ (![] : Fin 0 → Fin 2))
    (hs0 : (⟨2, ![n, 4096]⟩ : Shape).Slices ![0, 0] ⟨2, ![n, 1024]⟩)
    (hs1 : (⟨2, ![n, 4096]⟩ : Shape).Slices ![0, 1024] ⟨2, ![n, 1024]⟩)
    (hs2 : (⟨2, ![n, 4096]⟩ : Shape).Slices ![0, 2048] ⟨2, ![n, 1024]⟩) (r : Fin n) (q : Fin 1024) :
    addf
        (mulf (Host.divf (F := Ideal) (broadcastInDim ⟨2, ![n, 1024]⟩ (![] : Fin 0 → Fin 2) hb (constant (F := Ideal) ⟨0, ![]⟩ .f32 0x3F800000#32))
            (addf (broadcastInDim ⟨2, ![n, 1024]⟩ (![] : Fin 0 → Fin 2) hb (constant (F := Ideal) ⟨0, ![]⟩ .f32 0x3F800000#32))
              (Host.exp (F := Ideal) (Host.negf (F := Ideal) (extractStridedSlice ⟨2, ![n, 1024]⟩ ![0, 1024] G hs1))))) c0)
        (mulf (Host.divf (F := Ideal) (broadcastInDim ⟨2, ![n, 1024]⟩ (![] : Fin 0 → Fin 2) hb (constant (F := Ideal) ⟨0, ![]⟩ .f32 0x3F800000#32))
            (addf (broadcastInDim ⟨2, ![n, 1024]⟩ (![] : Fin 0 → Fin 2) hb (constant (F := Ideal) ⟨0, ![]⟩ .f32 0x3F800000#32))
              (Host.exp (F := Ideal) (Host.negf (F := Ideal) (extractStridedSlice ⟨2, ![n, 1024]⟩ ![0, 0] G hs0)))))
          (Host.tanh (F := Ideal) (extractStridedSlice ⟨2, ![n, 1024]⟩ ![0, 2048] G hs2))) (ix2 r q)
      = cNew (g r) (rowOf c0 r) q := by
  show _ * _ + _ * Ideal.tanh _ = Ideal.logistic (g r (quarter 1024 (by omega) q)) * c0 (ix2 r q)
      + Ideal.logistic (g r (quarter 0 (by omega) q)) * Ideal.tanh (g r (quarter 2048 (by omega) q))
  refine congrArg₂ (· + ·) (congrArg₂ (· * ·) (sigm_quarter_apply 1024 _ G g hG hb hs1 r q) rfl)
    (congrArg₂ (· * ·) (sigm_quarter_apply 0 _ G g hG hb hs0 r q)
      (congrArg Ideal.tanh ((quarter_slice_apply 2048 (by omega) G hs2 r q).trans (hG r _))))

/-! ## The factorised gate pre-activation -/

/-- The topic-conditioned scale (topic · Θᵀ + θ) · Bᵀ over the already transposed Θᵀ and Bᵀ. -/
theorem scale_apply {n : ℕ} (t : FVec Ideal ⟨2, ![n, 3]⟩ .f32) (thwT : FVec Ideal ⟨2, ![3, 3]⟩ .f32) (thb : FVec Ideal ⟨1, ![3]⟩ .f32)
    (wbT : FVec Ideal ⟨2, ![3, 128]⟩ .f32)
    (d1 : DotDims ⟨2, ![n, 3]⟩ ⟨2, ![3, 3]⟩ ⟨2, ![n, 3]⟩) (hd1 : d1 = DotDims.plain n 3 3)
    (d2 : DotDims ⟨2, ![n, 3]⟩ ⟨2, ![3, 128]⟩ ⟨2, ![n, 128]⟩) (hd2 : d2 = DotDims.plain n 3 128)
    (h4 : (⟨1, ![3]⟩ : Shape).BroadcastsInDim ⟨2, ![1, 3]⟩ (![1] : Fin 1 → Fin 2))
    (h5 : (⟨2, ![1, 3]⟩ : Shape).BroadcastsInDim ⟨2, ![n, 3]⟩ (![0, 1] : Fin 2 → Fin 2)) (r : Fin n) (f : Fin 128) :
    Host.dotGeneral (F := Ideal) d2 none
        (addf (Host.dotGeneral (F := Ideal) d1 none t thwT)
          (broadcastInDim ⟨2, ![n, 3]⟩ (![0, 1] : Fin 2 → Fin 2) h5 (broadcastInDim ⟨2, ![1, 3]⟩ (![1] : Fin 1 → Fin 2) h4 thb)))
        wbT (ix2 r f)
      = rowDot (fun k => rowDot (rowOf t r) thwT k + thb (ix1 k)) wbT f := by
  refine (dot_apply d2 hd2 _ _ r f).trans ?_
  show _ = ∑ k : Fin 3, ((∑ m : Fin 3, t (ix2 r m) * thwT (ix2 m k)) + thb (ix1 k)) * wbT (ix2 k f)
  refine Finset.sum_congr rfl fun k _ => congrArg (· * wbT (ix2 k f)) ?_
  exact congrArg₂ (· + ·) (dot_apply d1 hd1 t thwT r k) (bcast_row_apply h4 h5 thb r k)

/-- The factorised pre-activation ((x · C) ∘ s) · A over the already transposed C and A, s given entry by entry. -/
theorem pre_apply {n : ℕ} (x : FVec Ideal ⟨2, ![n, 1024]⟩ .f32) (S : FVec Ideal ⟨2, ![n, 128]⟩ .f32)
    (Ct : FVec Ideal ⟨2, ![1024, 128]⟩ .f32) (At : FVec Ideal ⟨2, ![128, 4096]⟩ .f32)
    (s : Fin n → Fin 128 → EReal) (hS : ∀ r f, S (ix2 r f) = s r f)
    (d3 : DotDims ⟨2, ![n, 1024]⟩ ⟨2, ![1024, 128]⟩ ⟨2, ![n, 128]⟩) (hd3 : d3 = DotDims.plain n 1024 128)
    (d4 : DotDims ⟨2, ![n, 128]⟩ ⟨2, ![128, 4096]⟩ ⟨2, ![n, 4096]⟩) (hd4 : d4 = DotDims.plain n 128 4096)
    (r : Fin n) (j : Fin 4096) :
    Host.dotGeneral (F := Ideal) d4 none (mulf (Host.dotGeneral (F := Ideal) d3 none x Ct) S) At (ix2 r j)
      = preGate (rowOf x r) (s r) Ct At j := by
  refine (dot_apply d4 hd4 _ _ r j).trans ?_
  show _ = ∑ f : Fin 128, ((∑ k : Fin 1024, x (ix2 r k) * Ct (ix2 k f)) * s r f) * At (ix2 f j)
  refine Finset.sum_congr rfl fun f _ => congrArg (· * At (ix2 f j)) ?_
  exact (mulf_apply _ _ _).trans (congrArg₂ (· * ·) (dot_apply d3 hd3 x Ct r f) (hS r f))

/-- The pre-activation as the reference spells it, with its four transposes, against the row functions. -/
theorem preact_apply {n : ℕ} (x : FVec Ideal ⟨2, ![n, 1024]⟩ .f32) (t : FVec Ideal ⟨2, ![n, 3]⟩ .f32)
    (A : FVec Ideal ⟨2, ![4096, 128]⟩ .f32) (wb : FVec Ideal ⟨2, ![128, 3]⟩ .f32) (C : FVec Ideal ⟨2, ![128, 1024]⟩ .f32)
    (thw : FVec Ideal ⟨2, ![3, 3]⟩ .f32) (thb : FVec Ideal ⟨1, ![3]⟩ .f32)
    (d1 : DotDims ⟨2, ![n, 3]⟩ ⟨2, ![3, 3]⟩ ⟨2, ![n, 3]⟩) (hd1 : d1 = DotDims.plain n 3 3)
    (d2 : DotDims ⟨2, ![n, 3]⟩ ⟨2, ![3, 128]⟩ ⟨2, ![n, 128]⟩) (hd2 : d2 = DotDims.plain n 3 128)
    (d3 : DotDims ⟨2, ![n, 1024]⟩ ⟨2, ![1024, 128]⟩ ⟨2, ![n, 128]⟩) (hd3 : d3 = DotDims.plain n 1024 128)
    (d4 : DotDims ⟨2, ![n, 128]⟩ ⟨2, ![128, 4096]⟩ ⟨2, ![n, 4096]⟩) (hd4 : d4 = DotDims.plain n 128 4096)
    (h4 : (⟨1, ![3]⟩ : Shape).BroadcastsInDim ⟨2, ![1, 3]⟩ (![1] : Fin 1 → Fin 2))
    (h5 : (⟨2, ![1, 3]⟩ : Shape).BroadcastsInDim ⟨2, ![n, 3]⟩ (![0, 1] : Fin 2 → Fin 2))
    (ht1 : (⟨2, ![3, 3]⟩ : Shape).Transposes [1, 0] ⟨2, ![3, 3]⟩)
    (ht2 : (⟨2, ![128, 3]⟩ : Shape).Transposes [1, 0] ⟨2, ![3, 128]⟩)
    (ht3 : (⟨2, ![128, 1024]⟩ : Shape).Transposes [1, 0] ⟨2, ![1024, 128]⟩)
    (ht4 : (⟨2, ![4096, 128]⟩ : Shape).Transposes [1, 0] ⟨2, ![128, 4096]⟩) (r : Fin n) (j : Fin 4096) :
    Host.dotGeneral (F := Ideal) d4 none
        (mulf (Host.dotGeneral (F := Ideal) d3 none x (transpose ⟨2, ![1024, 128]⟩ [1, 0] C ht3))
          (Host.dotGeneral (F := Ideal) d2 none
            (addf (Host.dotGeneral (F := Ideal) d1 none t (transpose ⟨2, ![3, 3]⟩ [1, 0] thw ht1))
              (broadcastInDim ⟨2, ![n, 3]⟩ (![0, 1] : Fin 2 → Fin 2) h5 (broadcastInDim ⟨2, ![1, 3]⟩ (![1] : Fin 1 → Fin 2) h4 thb)))
            (transpose ⟨2, ![3, 128]⟩ [1, 0] wb ht2)))
        (transpose ⟨2, ![128, 4096]⟩ [1, 0] A ht4) (ix2 r j)
      = preGate (rowOf x r) (scaleRow (rowOf t r) thw thb wb) (tr C) (tr A) j := by
  rw [transpose_eq_tr C ht3, transpose_eq_tr thw ht1, transpose_eq_tr wb ht2, transpose_eq_tr A ht4]
  exact pre_apply x _ (tr C) (tr A) (fun r => scaleRow (rowOf t r) thw thb wb)
    (fun r f => scale_apply t (tr thw) thb (tr wb) d1 hd1 d2 hd2 h4 h5 r f) d3 hd3 d4 hd4 r j

end Cert.ReferenceIdeal.Rows

end
-- ==== Proof.RefRows.lean ====
/-
  The reference program's two results, read at an index: row r, column q of each is the cell's row function
  (CellSpec) of row r of the inputs and of the shared parameters.
-/
import proofs.«179324_j88115549045316_1_alg».proof.Proof.Gen.ReferenceIdeal.Run
import proofs.«179324_j88115549045316_1_alg».proof.Proof.CellSpec
import proofs.«179324_j88115549045316_1_alg».proof.Proof.RefRowsB
import Idealize.ShloMosaic.Lib.IdealHost
import Idealize.ShloMosaic.Lib.ValueLayout
import Idealize.ShloMosaic.Lib.Pipeline.Value
import Idealize.ShloMosaic.PureOps.Ideal.Laws

noncomputable section

namespace Cert.ReferenceIdeal.Rows

open Idealize.ShloMosaic Idealize.ShloMosaic.ValueIdx Cert.ReferenceIdeal Cert.ReferenceIdeal.Gen Cert.ReferenceIdeal.Value Cert.Cell

/-- The reference run's term for the new hidden state, over any contents of the argument buffers. -/
def outHy (V0 : Valuation τ sig (Elt Ideal)) : S4096x1024.Idx → EReal :=
  mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 3072] (res_main_v72 V0) slices_S4096x4096_S4096x1024_0_3072))))) (Host.tanh (addf (mulf (mulf (subf (res_main_v98 V0) (broadcastInDim S4096x1024 ![0, 1] bcast_S4096x1_S4096x1024_0_1 (res_main_v102 V0))) (broadcastInDim S4096x1024 ![0, 1] bcast_S4096x1_S4096x1024_0_1 (Host.rsqrt (addf (Host.divf (broadcastInDim S4096x1 ![0] bcast_S4096_S4096x1_0 (Host.reduceAdd (mulf (res_main_v104 V0) (res_main_v104 V0)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 (V0 (Proc.devRef .tc main_arg18))))) (broadcastInDim S4096x1024 ![0, 1] bcast_S1x1024_S4096x1024_0_1 (broadcastInDim S1x1024 ![1] bcast_S1024_S1x1024_1 (V0 (Proc.devRef .tc main_arg19))))))

/-- The reference run's term for the new cell state. -/
def outCy (V0 : Valuation τ sig (Elt Ideal)) : S4096x1024.Idx → EReal :=
  addf (mulf (mulf (subf (res_main_v98 V0) (broadcastInDim S4096x1024 ![0, 1] bcast_S4096x1_S4096x1024_0_1 (res_main_v102 V0))) (broadcastInDim S4096x1024 ![0, 1] bcast_S4096x1_S4096x1024_0_1 (Host.rsqrt (addf (Host.divf (broadcastInDim S4096x1 ![0] bcast_S4096_S4096x1_0 (Host.reduceAdd (mulf (res_main_v104 V0) (res_main_v104 V0)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 (V0 (Proc.devRef .tc main_arg18))))) (broadcastInDim S4096x1024 ![0, 1] bcast_S1x1024_S4096x1024_0_1 (broadcastInDim S1x1024 ![1] bcast_S1024_S1x1024_1 (V0 (Proc.devRef .tc main_arg19))))

/-! ## The stages of the reference run, read at an index

Row r of every stage is a row function of row r of the inputs: the two pre-activations, their means and centred forms,
the gates, the new cell state before its normalisation with its mean and centred form, and then the two results. -/

section Stages

variable (V0 : Valuation τ sig (Elt Ideal))

/-- The input side's scale row. -/
def sI (r : Fin 4096) : Fin 128 → EReal :=
  scaleRow (rowOf (V0 (Proc.devRef .tc main_arg3)) r) (V0 (Proc.devRef .tc main_arg10)) (V0 (Proc.devRef .tc main_arg11)) (V0 (Proc.devRef .tc main_arg5))

/-- The hidden side's scale row. -/
def sH (r : Fin 4096) : Fin 128 → EReal :=
  scaleRow (rowOf (V0 (Proc.devRef .tc main_arg3)) r) (V0 (Proc.devRef .tc main_arg12)) (V0 (Proc.devRef .tc main_arg13)) (V0 (Proc.devRef .tc main_arg8))

/-- The input side's pre-activation row. -/
def pI (r : Fin 4096) : Fin 4096 → EReal :=
  preGate (rowOf (V0 (Proc.devRef .tc main_arg0)) r) (sI V0 r) (tr (V0 (Proc.devRef .tc main_arg6))) (tr (V0 (Proc.devRef .tc main_arg4)))

/-- The hidden side's pre-activation row. -/
def pH (r : Fin 4096) : Fin 4096 → EReal :=
  preGate (rowOf (V0 (Proc.devRef .tc main_arg1)) r) (sH V0 r) (tr (V0 (Proc.devRef .tc main_arg9))) (tr (V0 (Proc.devRef .tc main_arg7)))

/-- The gates row. -/
def gR (r : Fin 4096) : Fin 4096 → EReal :=
  gatesRow (pI V0 r) (pH V0 r) (V0 (Proc.devRef .tc main_arg14)) (V0 (Proc.devRef .tc main_arg15)) (V0 (Proc.devRef .tc main_arg16)) (V0 (Proc.devRef .tc main_arg17))

/-- The new cell state row before its normalisation. -/
def cN (r : Fin 4096) : Fin 1024 → EReal := cNew (gR V0 r) (rowOf (V0 (Proc.devRef .tc main_arg2)) r)

theorem v11_apply (r j : Fin 4096) : res_main_v11 V0 (ix2 r j) = pI V0 r j :=
  preact_apply (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg10)) (V0 (Proc.devRef .tc main_arg11))
    dot_S4096x3_S3x3_S4096x3_1_0_0_1_n_n rfl dot_S4096x3_S3x128_S4096x128_1_0_0_1_n_n rfl
    dot_S4096x1024_S1024x128_S4096x128_1_0_0_1_n_n rfl dot_S4096x128_S128x4096_S4096x4096_1_0_0_1_n_n rfl
    bcast_S3_S1x3_1 bcast_S1x3_S4096x3_0_1 transposes_S3x3_S3x3_1_0 transposes_S128x3_S3x128_1_0
    transposes_S128x1024_S1024x128_1_0 transposes_S4096x128_S128x4096_1_0 r j

theorem v23_apply (r j : Fin 4096) : res_main_v23 V0 (ix2 r j) = pH V0 r j :=
  preact_apply (V0 (Proc.devRef .tc main_arg1)) (V0 (Proc.devRef .tc main_arg3)) (V0 (Proc.devRef .tc main_arg7)) (V0 (Proc.devRef .tc main_arg8)) (V0 (Proc.devRef .tc main_arg9)) (V0 (Proc.devRef .tc main_arg12)) (V0 (Proc.devRef .tc main_arg13))
    dot_S4096x3_S3x3_S4096x3_1_0_0_1_n_n rfl dot_S4096x3_S3x128_S4096x128_1_0_0_1_n_n rfl
    dot_S4096x1024_S1024x128_S4096x128_1_0_0_1_n_n rfl dot_S4096x128_S128x4096_S4096x4096_1_0_0_1_n_n rfl
    bcast_S3_S1x3_1 bcast_S1x3_S4096x3_0_1 transposes_S3x3_S3x3_1_0 transposes_S128x3_S3x128_1_0
    transposes_S128x1024_S1024x128_1_0 transposes_S4096x128_S128x4096_1_0 r j

theorem v27_apply (r : Fin 4096) (u : Fin 1) : res_main_v27 V0 (ix2 r u) = rowMean n4096 (pI V0 r) :=
  meanCol_apply (res_main_v11 V0) n4096 (pI V0) (v11_apply V0) reducesTo_S4096x4096_S4096_d1 h_S_
    bcast_S4096_S4096x1_0 bcast_S_S4096x1 r u

theorem v29_apply (r c : Fin 4096) : res_main_v29 V0 (ix2 r c) = rowCtr n4096 (pI V0 r) c :=
  ctr_apply (res_main_v11 V0) (res_main_v27 V0) n4096 (pI V0) (v11_apply V0) (fun p => v27_apply V0 p 0)
    bcast_S4096x1_S4096x4096_0_1 r c

theorem v51_apply (r : Fin 4096) (u : Fin 1) : res_main_v51 V0 (ix2 r u) = rowMean n4096 (pH V0 r) :=
  meanCol_apply (res_main_v23 V0) n4096 (pH V0) (v23_apply V0) reducesTo_S4096x4096_S4096_d1 h_S_
    bcast_S4096_S4096x1_0 bcast_S_S4096x1 r u

theorem v53_apply (r c : Fin 4096) : res_main_v53 V0 (ix2 r c) = rowCtr n4096 (pH V0 r) c :=
  ctr_apply (res_main_v23 V0) (res_main_v51 V0) n4096 (pH V0) (v23_apply V0) (fun p => v51_apply V0 p 0)
    bcast_S4096x1_S4096x4096_0_1 r c

theorem v72_apply (r j : Fin 4096) : res_main_v72 V0 (ix2 r j) = gR V0 r j :=
  congrArg₂ (· + ·)
    (ln_apply (res_main_v11 V0) (res_main_v29 V0) (res_main_v27 V0) (V0 (Proc.devRef .tc main_arg14)) (V0 (Proc.devRef .tc main_arg15)) n4096 (pI V0)
      (v11_apply V0) (fun p => v27_apply V0 p 0) (v29_apply V0) reducesTo_S4096x4096_S4096_d1 h_S_
      bcast_S4096_S4096x1_0 bcast_S_S4096x1 bcast_S4096x1_S4096x4096_0_1 bcast_S4096_S1x4096_1 bcast_S1x4096_S4096x4096_0_1 r j)
    (ln_apply (res_main_v23 V0) (res_main_v53 V0) (res_main_v51 V0) (V0 (Proc.devRef .tc main_arg16)) (V0 (Proc.devRef .tc main_arg17)) n4096 (pH V0)
      (v23_apply V0) (fun p => v51_apply V0 p 0) (v53_apply V0) reducesTo_S4096x4096_S4096_d1 h_S_
      bcast_S4096_S4096x1_0 bcast_S_S4096x1 bcast_S4096x1_S4096x4096_0_1 bcast_S4096_S1x4096_1 bcast_S1x4096_S4096x4096_0_1 r j)

theorem v98_apply (r : Fin 4096) (q : Fin 1024) : res_main_v98 V0 (ix2 r q) = cN V0 r q :=
  cNew_apply (res_main_v72 V0) (V0 (Proc.devRef .tc main_arg2)) (gR V0) (v72_apply V0) bcast_S_S4096x1024
    slices_S4096x4096_S4096x1024_0_0 slices_S4096x4096_S4096x1024_0_1024 slices_S4096x4096_S4096x1024_0_2048 r q

theorem v102_apply (r : Fin 4096) (u : Fin 1) : res_main_v102 V0 (ix2 r u) = rowMean n1024 (cN V0 r) :=
  meanCol_apply (res_main_v98 V0) n1024 (cN V0) (v98_apply V0) reducesTo_S4096x1024_S4096_d1 h_S_
    bcast_S4096_S4096x1_0 bcast_S_S4096x1 r u

theorem v104_apply (r : Fin 4096) (c : Fin 1024) : res_main_v104 V0 (ix2 r c) = rowCtr n1024 (cN V0 r) c :=
  ctr_apply (res_main_v98 V0) (res_main_v102 V0) n1024 (cN V0) (v98_apply V0) (fun p => v102_apply V0 p 0)
    bcast_S4096x1_S4096x1024_0_1 r c

/-- The new cell state at (r, q): the normalised new cell state row. -/
theorem outCy_apply (r : Fin 4096) (q : Fin 1024) :
    outCy V0 (ix2 r q) = cyOf (gR V0 r) (rowOf (V0 (Proc.devRef .tc main_arg2)) r) (V0 (Proc.devRef .tc main_arg18)) (V0 (Proc.devRef .tc main_arg19)) q :=
  ln_apply (res_main_v98 V0) (res_main_v104 V0) (res_main_v102 V0) (V0 (Proc.devRef .tc main_arg18)) (V0 (Proc.devRef .tc main_arg19)) n1024 (cN V0)
    (v98_apply V0) (fun p => v102_apply V0 p 0) (v104_apply V0) reducesTo_S4096x1024_S4096_d1 h_S_
    bcast_S4096_S4096x1_0 bcast_S_S4096x1 bcast_S4096x1_S4096x1024_0_1 bcast_S1024_S1x1024_1 bcast_S1x1024_S4096x1024_0_1 r q

/-- The new hidden state at (r, q): the output gate times tanh of the new cell state. -/
theorem outHy_apply (r : Fin 4096) (q : Fin 1024) :
    outHy V0 (ix2 r q) = hyOf (gR V0 r) (rowOf (V0 (Proc.devRef .tc main_arg2)) r) (V0 (Proc.devRef .tc main_arg18)) (V0 (Proc.devRef .tc main_arg19)) q :=
  congrArg₂ (· * ·)
    (sigm_quarter_apply 3072 (by omega) (res_main_v72 V0) (gR V0) (v72_apply V0) bcast_S_S4096x1024
      slices_S4096x4096_S4096x1024_0_3072 r q)
    (congrArg Ideal.tanh (outCy_apply V0 r q))

end Stages

/-- The reference's new hidden state is the row function of the arguments, entry by entry. -/
theorem outHy_eq (V0 : Valuation τ sig (Elt Ideal)) :
    outHy V0 = hyAll (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) := by
  funext i
  obtain ⟨r, q, rfl⟩ : ∃ (r : Fin 4096) (q : Fin 1024), i = ix2 r q := ⟨i 0, i 1, eq_ix2 i⟩
  exact (outHy_apply V0 r q).trans (hyAll_apply _ _ _ _ _ _ _ _ _ _ _ _ _ _ _ _ _ _ _ _ r q).symm

/-- The reference's new cell state is the row function of the arguments, entry by entry. -/
theorem outCy_eq (V0 : Valuation τ sig (Elt Ideal)) :
    outCy V0 = cyAll (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) := by
  funext i
  obtain ⟨r, q, rfl⟩ : ∃ (r : Fin 4096) (q : Fin 1024), i = ix2 r q := ⟨i 0, i 1, eq_ix2 i⟩
  exact (outCy_apply V0 r q).trans (cyAll_apply _ _ _ _ _ _ _ _ _ _ _ _ _ _ _ _ _ _ _ _ r q).symm

end Cert.ReferenceIdeal.Rows

end
-- ==== Proof.lean ====
/-
  The certificate of the fused topic-adaptive LSTM cell.

  Kernel and reference compute, for every batch row, the same row function (Proof/CellSpec.lean): the topic-conditioned
  scales, the two factorised gate pre-activations, their layer normalisations, the gates, the new cell state and
  its layer normalisation, the new hidden state.  On the extended reals every step of the two programs is the
  same exact operation: a change of float format is the identity, the kernel's matrix unit into a zero accumulator
  and the host's dot product are one sum over the contracted axis, a lane sum and a host sum are one sum over the
  row, and the kernel's logistic is by definition the quotient 1 / (1 + e⁻ˣ) the reference spells out.  No law that
  fails at an infinity is used, so the precondition is never opened.

  The kernel's leg (Proof/KernelRows.lean, Proof/KernelBlocks.lean): what grid point t stores is, row by row, the row
  function of rows 128·t … 128·t + 127 of the arguments, and the 32 blocks tile each result.  The reference's leg
  (Proof/RefRows.lean): each result of its run, read at (r, q), is the row function of row r of the arguments.
  The frames are the generated ones; the reference's is its generated run with the results dropped.
-/
import proofs.«179324_j88115549045316_1_alg».proof.Defs
import proofs.«179324_j88115549045316_1_alg».proof.Proof.Gen.Kernel
import proofs.«179324_j88115549045316_1_alg».proof.Proof.Gen.Kernel.Frame
import proofs.«179324_j88115549045316_1_alg».proof.Proof.Gen.KernelIdeal
import proofs.«179324_j88115549045316_1_alg».proof.Proof.Gen.KernelIdeal.Frame
import proofs.«179324_j88115549045316_1_alg».proof.Proof.Gen.ReferenceIdeal
import proofs.«179324_j88115549045316_1_alg».proof.Proof.Gen.ReferenceIdeal.Run
import proofs.«179324_j88115549045316_1_alg».proof.Proof.Gen.Pre_finite_inputs
import proofs.«179324_j88115549045316_1_alg».proof.Proof.KernelBlocks
import proofs.«179324_j88115549045316_1_alg».proof.Proof.RefRows
import Idealize.ShloMosaic.Adequacy
import Idealize.ShloMosaic.Init

noncomputable section

namespace Cert.Proof

open Idealize.ShloMosaic Idealize.ShloMosaic.TcCoe Idealize.SL.Sem Cert.Cell

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The row functions of equal arguments are equal. -/
theorem hyAll_agree {a0 b0 : Arr2 4096 1024} {a1 b1 : Arr2 4096 1024} {a2 b2 : Arr2 4096 1024} {a3 b3 : Arr2 4096 3} {a4 b4 : Arr2 4096 128} {a5 b5 : Arr2 128 3} {a6 b6 : Arr2 128 1024} {a7 b7 : Arr2 4096 128} {a8 b8 : Arr2 128 3} {a9 b9 : Arr2 128 1024} {a10 b10 : Arr2 3 3} {a11 b11 : Arr1 3} {a12 b12 : Arr2 3 3} {a13 b13 : Arr1 3} {a14 b14 : Arr1 4096} {a15 b15 : Arr1 4096} {a16 b16 : Arr1 4096} {a17 b17 : Arr1 4096} {a18 b18 : Arr1 1024} {a19 b19 : Arr1 1024}
    (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) (h17 : b17 = a17) (h18 : b18 = a18) (h19 : b19 = a19) :
    hyAll b0 b1 b2 b3 b4 b5 b6 b7 b8 b9 b10 b11 b12 b13 b14 b15 b16 b17 b18 b19 = hyAll a0 a1 a2 a3 a4 a5 a6 a7 a8 a9 a10 a11 a12 a13 a14 a15 a16 a17 a18 a19 := by
  subst h0 h1 h2 h3 h4 h5 h6 h7 h8 h9 h10 h11 h12 h13 h14 h15 h16 h17 h18 h19; rfl

theorem cyAll_agree {a0 b0 : Arr2 4096 1024} {a1 b1 : Arr2 4096 1024} {a2 b2 : Arr2 4096 1024} {a3 b3 : Arr2 4096 3} {a4 b4 : Arr2 4096 128} {a5 b5 : Arr2 128 3} {a6 b6 : Arr2 128 1024} {a7 b7 : Arr2 4096 128} {a8 b8 : Arr2 128 3} {a9 b9 : Arr2 128 1024} {a10 b10 : Arr2 3 3} {a11 b11 : Arr1 3} {a12 b12 : Arr2 3 3} {a13 b13 : Arr1 3} {a14 b14 : Arr1 4096} {a15 b15 : Arr1 4096} {a16 b16 : Arr1 4096} {a17 b17 : Arr1 4096} {a18 b18 : Arr1 1024} {a19 b19 : Arr1 1024}
    (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) (h17 : b17 = a17) (h18 : b18 = a18) (h19 : b19 = a19) :
    cyAll b0 b1 b2 b3 b4 b5 b6 b7 b8 b9 b10 b11 b12 b13 b14 b15 b16 b17 b18 b19 = cyAll a0 a1 a2 a3 a4 a5 a6 a7 a8 a9 a10 a11 a12 a13 a14 a15 a16 a17 a18 a19 := by
  subst h0 h1 h2 h3 h4 h5 h6 h7 h8 h9 h10 h11 h12 h13 h14 h15 h16 h17 h18 h19; rfl

/-- Both programs end with the row function of the arguments in each result, and the arguments agree. -/
theorem algebraic : Cert.algebraic_KernelIdeal_ReferenceIdeal := by
  intro m ρ m' ρ' _ hagree
  refine ⟨fun c => hyAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => cyAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18, h19⟩ := hagree c
    exact (Cert.ReferenceIdeal.Rows.outHy_eq (StableHlo.launchContents m' c)).trans (hyAll_agree h0 h1 h2 h3 h4 h5 h6 h7 h8 h9 h10 h11 h12 h13 h14 h15 h16 h17 h18 h19)
  · obtain ⟨h0, h1, h2, h3, h4, h5, h6, h7, h8, h9, h10, h11, h12, h13, h14, h15, h16, h17, h18, h19⟩ := hagree c
    exact (Cert.ReferenceIdeal.Rows.outCy_eq (StableHlo.launchContents m' c)).trans (cyAll_agree h0 h1 h2 h3 h4 h5 h6 h7 h8 h9 h10 h11 h12 h13 h14 h15 h16 h17 h18 h19)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
